-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S200000x20 : Shape := ⟨2, ![200000, 20]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S200000x20 : S_.BroadcastsInDim S200000x20 (![] : Fin 0 → Fin S200000x20.rank)
  reducesTo_S200000x20_S_d0_1 : S200000x20.ReducesTo [0, 1] S_

variable [Facts]

def fn {F : FTy → Type} [FloatOps F] (main_arg0 : FVec F S200000x64 .f32) (main_arg1 : FVec F S200000x20 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S200000x20 .f32 := Host.absf main_arg1
  let main_cst_0 : FVec F S_ .f32 := constant S_ .f32 0x7F800000#32
  let main_v5 : FVec F S200000x20 .f32 := broadcastInDim S200000x20 ![] bcast_S_S200000x20 main_cst_0
  let main_v6 : IVec S200000x20 1 := cmpf .olt main_v4 main_v5
  let main_c_1 : IVec S_ 1 := constantI S_ 1 1#1
  let main_v7 : IVec S_ 1 := (fun x v => Host.reduce IntOp.andi x v reducesTo_S200000x20_S_d0_1 h_S_) main_v6 main_c_1
  let main_v8 : IVec S_ 1 := andi main_v3 main_v7
  main_v8
-- ==== Kernel.lean ====
abbrev S200000x64 : Shape := ⟨2, ![200000, 64]⟩
abbrev S200000x20 : Shape := ⟨2, ![200000, 20]⟩
abbrev S20x64 : Shape := ⟨2, ![20, 64]⟩
abbrev S20x200000 : Shape := ⟨2, ![20, 200000]⟩
abbrev S128x128 : Shape := ⟨2, ![128, 128]⟩
abbrev S12800x64 : Shape := ⟨2, ![12800, 64]⟩
abbrev S20x12800 : Shape := ⟨2, ![20, 12800]⟩
abbrev S8x128 : Shape := ⟨2, ![8, 128]⟩
abbrev S1x64 : Shape := ⟨2, ![1, 64]⟩
abbrev S1x12800 : Shape := ⟨2, ![1, 12800]⟩
abbrev S20 : Shape := ⟨1, ![20]⟩
abbrev S20x1 : Shape := ⟨2, ![20, 1]⟩
abbrev S1x20x12800 : Shape := ⟨3, ![1, 20, 12800]⟩
abbrev S1 : Shape := ⟨1, ![1]⟩
abbrev S1x1x1 : Shape := ⟨3, ![1, 1, 1]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S200000x64, .f32⟩
  | .hbm, ⟨1, _⟩ => ⟨S200000x20, .f32⟩
  | .hbm, ⟨2, _⟩ => ⟨S20x64, .f32⟩
  | .hbm, ⟨3, _⟩ => ⟨S20x200000, .f32⟩
  | .hbm, ⟨4, _⟩ => ⟨S128x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S12800x64, .f32⟩
  | .local _ .vmem, ⟨1, _⟩ => ⟨S12800x64, .f32⟩
  | .local _ .vmem, ⟨2, _⟩ => ⟨S20x12800, .f32⟩
  | .local _ .vmem, ⟨3, _⟩ => ⟨S20x12800, .f32⟩
  | .local _ .vmem, ⟨4, _⟩ => ⟨S20x64, .f32⟩
  | .local _ .vmem, ⟨5, _⟩ => ⟨S8x128, .f32⟩
  | .local _ .vmem, ⟨6, _⟩ => ⟨S8x128, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x12800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S20x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S200000x64_S20x64_0_0 : S200000x64.Slices ![0, 0] S20x64
  transposes_S200000x20_S20x200000_1_0 : S200000x20.Transposes [1, 0] S20x200000
  inb_S12800x64_S12800x64_0_0 : ∀ a, (![0, 0] : Fin 2 → Nat) a + S12800x64.size a ≤ S12800x64.size a
  h_S12800x64 : 0 < S12800x64.numel
  inb_S20x12800_S20x12800_0_0 : ∀ a, (![0, 0] : Fin 2 → Nat) a + S20x12800.size a ≤ S20x12800.size a
  h_S20x12800 : 0 < S20x12800.numel
  shapeCasts_S20x12800_S20x12800 : S20x12800.ShapeCasts S20x12800
  inb_S20x64_S20x64_0_0 : ∀ a, (![0, 0] : Fin 2 → Nat) a + S20x64.size a ≤ S20x64.size a
  h_S20x64 : 0 < S20x64.numel
  shapeCasts_S20x64_S20x64 : S20x64.ShapeCasts S20x64
  reduces_S20x64_S20 : S20x64.Reduces [1] S20
  shapeCasts_S20_S20x1 : S20.ShapeCasts S20x1
  broadcasts_S20x1_S20x12800 : S20x1.Broadcasts S20x12800
  broadcasts_S1x12800_S20x12800 : S1x12800.Broadcasts S20x12800
  iota_S20x12800_d1_w32 : S20x12800.Iotas .tc 32 [1]
  shapeCasts_S20x12800_S1x20x12800 : S20x12800.ShapeCasts S1x20x12800
  reduces_S1x20x12800_S1 : S1x20x12800.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  inb_S8x128_S8x128_0_0 : ∀ a, (![0, 0] : Fin 2 → Nat) a + S8x128.size a ≤ S8x128.size a
  h_S8x128 : 0 < S8x128.numel
  reducesTo_S128x128_S_d0_1 : S128x128.ReducesTo [0, 1] S_
  h_S_ : 0 < S_.numel
  dot_S20x64_S12800x64_S20x12800_1_1_0_0_n_n_wf : DotDims.WF S20x64 S12800x64 S20x12800 [1] [1] [0] [0] [] []
  dot_S1x64_S12800x64_S1x12800_1_1_0_0_n_n_wf : DotDims.WF S1x64 S12800x64 S1x12800 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S12800x64.size a < S200000x64.size a
  hwx0_0 : ∀ i : grid0.Coords, EltTy.bits .f32 = 32 ∨ (Rect.unit (s := S200000x64) (fun a => cc0_transform_0 i a * S12800x64.size a) (fun a => (Pipeline.Clip.of (cc0_transform_0 i a) (S12800x64.size a) (S200000x64.size a)).extent (S12800x64.size a)) fun a => Pipeline.Clip.inb (Pipeline.Clip.ok_of (hstart0_0 i a))).WholeWords (EltTy.packing .f32)
  hwxs0_0 : ∀ i : grid0.Coords, EltTy.bits .f32 = 32 ∨ (Rect.unit (s := S12800x64) (fun _ => 0) (fun a => (Pipeline.Clip.of (cc0_transform_0 i a) (S12800x64.size a) (S200000x64.size a)).extent (S12800x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S20x12800.size a < S20x200000.size a
  hwx0_1 : ∀ i : grid0.Coords, EltTy.bits .f32 = 32 ∨ (Rect.unit (s := S20x200000) (fun a => cc0_transform_1 i a * S20x12800.size a) (fun a => (Pipeline.Clip.of (cc0_transform_1 i a) (S20x12800.size a) (S20x200000.size a)).extent (S20x12800.size a)) fun a => Pipeline.Clip.inb (Pipeline.Clip.ok_of (hstart0_1 i a))).WholeWords (EltTy.packing .f32)
  hwxs0_1 : ∀ i : grid0.Coords, EltTy.bits .f32 = 32 ∨ (Rect.unit (s := S20x12800) (fun _ => 0) (fun a => (Pipeline.Clip.of (cc0_transform_1 i a) (S20x12800.size a) (S20x200000.size a)).extent (S20x12800.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20x64.size a ≤ S20x64.size a
  hwx0_2 : ∀ i : grid0.Coords, EltTy.bits .f32 = 32 ∨ (Rect.block (s := S20x64) S20x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S128x128.size a
  hwx0_3 : ∀ i : grid0.Coords, EltTy.bits .f32 = 32 ∨ (Rect.block (s := S128x128) S8x128.size (cc0_transform_3 i) (hinb0_3 i)).WholeWords (EltTy.packing .f32)

variable [Facts₀]

def dot_S20x64_S12800x64_S20x12800_1_1_0_0_n_n : DotDims S20x64 S12800x64 S20x12800 where
  lhsContracting := [1]
  rhsContracting := [1]
  lhsNonContracting := [0]
  rhsNonContracting := [0]
  lhsBatch := []
  rhsBatch := []
  wf := dot_S20x64_S12800x64_S20x12800_1_1_0_0_n_n_wf
def dot_S1x64_S12800x64_S1x12800_1_1_0_0_n_n : DotDims S1x64 S12800x64 S1x12800 where
  lhsContracting := [1]
  rhsContracting := [1]
  lhsNonContracting := [0]
  rhsNonContracting := [0]
  lhsBatch := []
  rhsBatch := []
  wf := dot_S1x64_S12800x64_S1x12800_1_1_0_0_n_n_wf

abbrev win0_0 : Pipeline.Window sig grid0 :=
  Pipeline.Window.ofSpecClip (Memref.whole main_arg0) S12800x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S20x12800.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0) S20x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S200000x64 : Shape := ⟨2, ![200000, 64]⟩
abbrev S200000x20 : Shape := ⟨2, ![200000, 20]⟩
abbrev S20x64 : Shape := ⟨2, ![20, 64]⟩
abbrev S_ : Shape := ⟨0, ![]⟩
abbrev S200000 : Shape := ⟨1, ![200000]⟩
abbrev S20 : Shape := ⟨1, ![20]⟩
abbrev S64x20 : Shape := ⟨2, ![64, 20]⟩
abbrev S200000x1 : Shape := ⟨2, ![200000, 1]⟩
abbrev S1x20 : Shape := ⟨2, ![1, 20]⟩

abbrev nBuf : Space → Nat
  | .hbm => 42
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S200000x20, .f32⟩
  | .hbm, ⟨2, _⟩ => ⟨S20x64, .f32⟩
  | .hbm, ⟨3, _⟩ => ⟨S200000x64, .f32⟩
  | .hbm, ⟨4, _⟩ => ⟨S_, .f32⟩
  | .hbm, ⟨5, _⟩ => ⟨S200000, .f32⟩
  | .hbm, ⟨6, _⟩ => ⟨S20, .f32⟩
  | .hbm, ⟨7, _⟩ => ⟨S64x20, .f32⟩
  | .hbm, ⟨8, _⟩ => ⟨S200000x20, .f32⟩
  | .hbm, ⟨9, _⟩ => ⟨S200000x1, .f32⟩
  | .hbm, ⟨10, _⟩ => ⟨S1x20, .f32⟩
  | .hbm, ⟨11, _⟩ => ⟨S200000x20, .f32⟩
  | .hbm, ⟨12, _⟩ => ⟨S200000x20, .f32⟩
  | .hbm, ⟨13, _⟩ => ⟨S200000x20, .f32⟩
  | .hbm, ⟨14, _⟩ => ⟨S_, .f32⟩
  | .hbm, ⟨15, _⟩ => ⟨S200000x20, .f32⟩
  | .hbm, ⟨16, _⟩ => ⟨S200000x20, .f32⟩
  | .hbm, ⟨17, _⟩ => ⟨S200000x20, .f32⟩
  | .hbm, ⟨18, _⟩ => ⟨S_, .f32⟩
  | .hbm, ⟨19, _⟩ => ⟨S200000x20, .f32⟩
  | .hbm, ⟨20, _⟩ => ⟨S200000x20, .f32⟩
  | .hbm, ⟨21, _⟩ => ⟨S_, .f32⟩
  | .hbm, ⟨22, _⟩ => ⟨S200000x20, .f32⟩
  | .hbm, ⟨23, _⟩ => ⟨S200000x20, .i1⟩
  | .hbm, ⟨24, _⟩ => ⟨S_, .f32⟩
  | .hbm, ⟨25, _⟩ => ⟨S200000x20, .f32⟩
  | .hbm, ⟨26, _⟩ => ⟨S200000x20, .i1⟩
  | .hbm, ⟨27, _⟩ => ⟨S_, .f32⟩
  | .hbm, ⟨28, _⟩ => ⟨S_, .f32⟩
  | .hbm, ⟨29, _⟩ => ⟨S200000x20, .f32⟩
  | .hbm, ⟨30, _⟩ => ⟨S200000x20, .f32⟩
  | .hbm, ⟨31, _⟩ => ⟨S200000x20, .f32⟩
  | .hbm, ⟨32, _⟩ => ⟨S_, .f32⟩
  | .hbm, ⟨33, _⟩ => ⟨S_, .f32⟩
  | .hbm, ⟨34, _⟩ => ⟨S200000x20, .f32⟩
  | .hbm, ⟨35, _⟩ => ⟨S200000x20, .f32⟩
  | .hbm, ⟨36, _⟩ => ⟨S200000x20, .f32⟩
  | .hbm, ⟨37, _⟩ => ⟨S200000x20, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_call1_v0 : Ref sig .tc := ⟨.hbm, 33, rfl⟩
abbrev main_call1_v1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  slices_S200000x64_S20x64_0_0 : S200000x64.Slices ![0, 0] S20x64
  reducesTo_S200000x64_S200000_d1 : S200000x64.ReducesTo [1] S200000
  h_S_ : 0 < S_.numel
  slices_S200000_S20_0 : S200000.Slices ![0] S20
  transposes_S20x64_S64x20_1_0 : S20x64.Transposes [1, 0] S64x20
  bcast_S200000_S200000x1_0 : S200000.BroadcastsInDim S200000x1 (![0] : Fin 1 → Fin S200000x1.rank)
  bcast_S20_S1x20_1 : S20.BroadcastsInDim S1x20 (![1] : Fin 1 → Fin S1x20.rank)
  bcast_S200000x1_S200000x20_0_1 : S200000x1.BroadcastsInDim S200000x20 (![0, 1] : Fin 2 → Fin S200000x20.rank)
  bcast_S1x20_S200000x20_0_1 : S1x20.BroadcastsInDim S200000x20 (![0, 1] : Fin 2 → Fin S200000x20.rank)
  bcast_S_S200000x20 : S_.BroadcastsInDim S200000x20 (![] : Fin 0 → Fin S200000x20.rank)
  reducesTo_S200000x20_S_d0_1 : S200000x20.ReducesTo [0, 1] S_
  dot_S200000x64_S64x20_S200000x20_1_0_0_1_n_n_wf : DotDims.WF S200000x64 S64x20 S200000x20 [1] [0] [0] [1] [] []

variable [Facts₀]

def dot_S200000x64_S64x20_S200000x20_1_0_0_1_n_n : DotDims S200000x64 S64x20 S200000x20 where
  lhsContracting := [1]
  rhsContracting := [0]
  lhsNonContracting := [0]
  rhsNonContracting := [1]
  lhsBatch := []
  rhsBatch := []
  wf := dot_S200000x64_S64x20_S200000x20_1_0_0_1_n_n_wf

class Facts : Prop extends Facts₀ where

variable [Facts]
-- ==== Proof.KernelBody.lean ====
/-
  The kernel body as one step of separation logic, at any float instance. Called on four whole staging buffers — the
  tile of rows, the tile of given distances, the twenty context rows, and the 8 × 128 result block — it loads the first
  three whole, computes, loads the result block (a value it never uses) and stores the result block whole. So the three
  input buffers end as they were, and the result buffer ends holding `outBlock`: the body's second payload of its first
  payload of the three loaded contents, whatever the result buffer held before.
-/
import proofs.«415024_j66546223284649_3_alg».proof.Proof.Gen.Kernel.Skeleton
import proofs.«415024_j66546223284649_3_alg».proof.Proof.Gen.Kernel.Launch
import proofs.«415024_j66546223284649_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each the whole of its buffer -/

abbrev rRows : Rect S12800x64 := Rect.unit (s := S12800x64) ![0, 0] S12800x64.size inb_S12800x64_S12800x64_0_0
abbrev rDist : Rect S20x12800 := Rect.unit (s := S20x12800) ![0, 0] S20x12800.size inb_S20x12800_S20x12800_0_0
abbrev rCtx : Rect S20x64 := Rect.unit (s := S20x64) ![0, 0] S20x64.size inb_S20x64_S20x64_0_0
abbrev rOut : Rect S8x128 := Rect.unit (s := S8x128) ![0, 0] S8x128.size inb_S8x128_S8x128_0_0

/-- What the body leaves in the result buffer, from what the three input buffers hold: its one store, of the second
    payload of the first payload of the three loads. -/
def outBlock (i : grid0.Coords) (x0 : Vec F S12800x64 .f32) (x1 : Vec F S20x12800 .f32) (x2 : Vec F S20x64 .f32) :
    Vec F S8x128 .f32 :=
  View.canon [⟨rOut, k0_pay1 (k0_pay2 i (View.ld x0 rRows) (View.ld x1 rDist) (View.ld x2 rCtx))⟩]

/-- Each access is the whole of its buffer, so the result block is simply the second payload of the first payload of the
    three buffers' contents. -/
theorem outBlock_eq (i : grid0.Coords) (x0 : Vec F S12800x64 .f32) (x1 : Vec F S20x12800 .f32) (x2 : Vec F S20x64 .f32) :
    outBlock i x0 x1 x2 = k0_pay1 (k0_pay2 i x0 x1 x2) := by
  have hz : (![0, 0] : Fin 2 → Nat) = fun _ => 0 := funext fun a => by fin_cases a <;> rfl
  unfold outBlock
  rw [View.canon_unit_zero hz, View.ld_unit_zero hz, View.ld_unit_zero hz, View.ld_unit_zero hz]

/-- The one store covers the result buffer. -/
theorem cover_out (p0 : Vec F S8x128 .f32) (y : S8x128.Idx) :
    ∃ pc ∈ ([⟨rOut, p0⟩] : List (View.Piece (Elt F) S8x128 .f32)), y ∈ pc.1.set :=
  View.cover_of_tiled [⟨rOut, p0⟩] S8x128.size (by rfl) y

set_option maxHeartbeats 1000000 in
/-- The body's triple. -/
theorem sound_kernel (c : Dev nD) (E : Set ℕ) (i : grid0.Coords)
    (arg1 : Memref sig .tc .vmem S12800x64 .f32) (harg1 : arg1.IsWhole) (arg2 : Memref sig .tc .vmem S20x12800 .f32) (harg2 : arg2.IsWhole)
    (arg3 : Memref sig .tc .vmem S20x64 .f32) (harg3 : arg3.IsWhole) (arg4 : Memref sig .tc .vmem S8x128 .f32) (harg4 : arg4.IsWhole)
    (x0 : Vec F S12800x64 .f32) (x1 : Vec F S20x12800 .f32) (x2 : Vec F S20x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock i x0 x1 x2)) -∗ K ⟨⟩))
      ⊢ wp frame (wpE (defs₀ (F := F)) Variants.none c none) E (cc0__loss_kernel i arg1 harg1 arg2 harg2 arg3 harg3 arg4 harg4) K := by
  simp only [cc0__loss_kernel_eq_skeleton]; unfold cc0__loss_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.Kernel.Body

end
-- ==== Proof.KernelRun.lean ====
/-
  The kernel's run at the machine's words, for the frame claim only. Sixteen grid points; at point `t` the pipeline
  hands the body the tile of rows `12800·t …` and the matching tile of given distances, both fetched afresh, the
  twenty context rows, fetched once, and a result block. The last tile overhangs the tables by 4800 rows: its fetch lands
  only the 8000 rows that exist and leaves the rest of the buffer at words nothing names. At the machine's words a
  matrix product is not a sum of products column by column, so the result block may depend on those words. The
  result block's contents are therefore not named at all: a frame claim reads nothing of it. The body obligation hands
  the result window to the body at arbitrary contents and takes it back at arbitrary contents; the three input windows
  are left as fetched. The launch theorem over the proof data with the result window forgotten gives the run, nothing
  said of the result array nor of the four buffers the lines after the region write; the two argument tables end
  unchanged.
-/
import proofs.«415024_j66546223284649_3_alg».proof.Proof.Gen.Kernel.Frame
import proofs.«415024_j66546223284649_3_alg».proof.Proof.KernelBody
import Idealize.ShloMosaic.PureOps.BitExact

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (m : (ℓ : Loc nD τ sig) → Buf (Elt Bits) ℓ) (ρ : Dev nD → PrngReg)

/-! ## The proof data -/

/-- The result window (window 3) is the one whose contents are not named. -/
def fgt : Fin cfg0.W → Bool := fun w => w.val == 3

/-- The tiles at point `t`, filled out with zero words past the tables' end. -/
def rowsBlk (c : Dev nD) (t : Fin cfg0.N) : S12800x64.Idx → Elt Bits .f32 :=
  win0_0.fill (grid0.coords t) (fun _ => (0#32 : BitVec 32)) (iblk m c 0 t)
def distBlk (c : Dev nD) (t : Fin cfg0.N) : S20x12800.Idx → Elt Bits .f32 :=
  win0_1.fill (grid0.coords t) (fun _ => (0#32 : BitVec 32)) (iblk m c 1 t)

/-- The proof data of the one pipeline on core `c`: the arrays as the region finds them; after the body the two tiles'
    buffers and the context rows' buffer as fetched; for the result's buffer a placeholder, which nothing reads (the
    window is forgotten); the class's invariant; nothing owed; full shares. -/
def dats (_ : Fin 1) (c : Dev nD) : Dat τ (Elt Bits) Unit ℕ (UR sig nD τ) ℕ cfg0 c where
  A w := V m c (Pipeline.arrRef spec0 w)
  after w t := match w with
    | ⟨0, _⟩ => rowsBlk m c t
    | ⟨1, _⟩ => distBlk m c t
    | ⟨2, _⟩ => iblk m c 2 t
    | ⟨3, _⟩ => fun _ => (0#32 : BitVec 32)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = rowsBlk m c t := by dsimp only [dats]
theorem after_dist (c : Dev nD) (t : Fin cfg0.N) : (dats m 0 c).after 1 t = distBlk m c t := by dsimp only [dats]
theorem after_ctx (c : Dev nD) (t : Fin cfg0.N) : (dats m 0 c).after 2 t = iblk m c 2 t := by dsimp only [dats]

/-- What the body finds: each tile just fetched — its block where the table has rows, `d` elsewhere —, -/
theorem before_rows (c : Dev nD) (t : Fin cfg0.N) (d) :
    (dats m 0 c).before 0 t d = win0_0.fill (grid0.coords t) d (iblk m c 0 t) := by
  unfold Dat.before; rw [if_pos (fetch0_0 t)]; rfl
theorem before_dist (c : Dev nD) (t : Fin cfg0.N) (d) :
    (dats m 0 c).before 1 t d = win0_1.fill (grid0.coords t) d (iblk m c 1 t) := by
  unfold Dat.before; rw [if_pos (fetch0_1 t)]; rfl
/-- the context rows at every point, fetched there or not. -/
theorem before_ctx (c : Dev nD) (t : Fin cfg0.N) (d) : (dats m 0 c).before 2 t d = iblk m c 2 t :=
  before0_2_of m (dats m 0 c) (A_eq m c 2) (after_ctx m c) t d

/-! ## The body obligation, at a generic point -/

/-- What the body is called with at point `t`, the windows one by one: the three inputs as fetched, the result's
    buffer at whatever it holds, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- and what it returns: the two tiles' buffers stated where the tables have rows, the context rows' whole, the
    result's at whatever the body left. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ (∃ d, owns (c : Thread nD τ) (st0_1 t) fullShare
        ((cfg0.win 1).fill (cfg0.grid.coords t) d ((cfg0.win 1).cut (cfg0.grid.coords t) ((dats m 0 c).after 1 t))))
    ∗ owns (c : Thread nD τ) (st0_2 t) fullShare ((dats m 0 c).after 2 t)
    ∗ (∃ X, owns (c : Thread nD τ) (st0_3 t) fullShare X))

/-- The body at any point: the tiles arrive filled out with whatever the fetch left past the tables' end and the body
    leaves them so; the result block it stores is not named. -/
theorem sound_body (c : Dev nD) (t : Fin cfg0.N) :
    bodyPre m c t ⊢ wp frame (wpE (defs₀ (F := Bits)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_rows m c t d0, before_dist m c t d1, before_ctx m c t d2]
  have hx : (cfg0.win 0).cut (cfg0.grid.coords t) ((dats m 0 c).after 0 t) = iblk m c 0 t := by
    rw [after_rows]; exact win0_0.cut_fill _ _ _
  have hy : (cfg0.win 1).cut (cfg0.grid.coords t) ((dats m 0 c).after 1 t) = iblk m c 1 t := by
    rw [after_dist]; exact win0_1.cut_fill _ _ _
  rw [hx, hy, after_ctx]
  iapply (Body.sound_kernel (F := Bits) c Set.univ (grid0.coords t) _ _ _ _ _ _ _ _
    (win0_0.fill (grid0.coords t) d0 (iblk m c 0 t)) (win0_1.fill (grid0.coords t) d1 (iblk m c 1 t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexists d1; iexact H1
  isplitl [H2]; · iexact H2
  iexists _; iexact H3

/-- The library's body obligation with the result window forgotten, at every point. -/
theorem body_obligation (c : Dev nD) :
    BodyObligationLoose (dats m 0 c) (defs₀ (F := Bits)) Variants.none () Set.univ fgt := fun t => by
  rw [bigSep_W0, bigSep_W0]
  exact sound_body m c t

/-! ## The run and the frame -/

/-- The buffers the four lines after the region write: results computed from the result array, whose contents are not
    named, so nothing is stated of them either. -/
def T : Finset (Ref sig .tc) := {main_cst, main_v3, main_cst_0, main_v4}

/-- Each line after the region writes only its own result buffer, one of `T`. -/
theorem tail_writes : ∀ ops ∈ ([hostOps1] : List (List (HloOp τ sig (Elt Bits)))), ∀ op ∈ ops,
    ∀ b : Ref sig .tc, Proc.devRef .tc b ∈ op.writes → b ∈ T := by
  intro ops hops op hop
  simp only [List.mem_cons, List.mem_nil_iff, _root_.or_false] at hops
  rcases hops with rfl
  simp only [hostOps1, List.mem_cons, List.mem_nil_iff, _root_.or_false] at hop
  rcases hop with rfl | rfl | rfl | rfl
  all_goals
    intro b hb
    simp only [StableHlo.nullary_writes, StableHlo.binary_writes, Finset.mem_singleton] at hb
    cases Proc.devRef_injective _ hb
    decide

set_option backward.isDefEq.respectTransparency.types false in
/-- From any memory with zero counters every weakly fair execution of @main ends, with every input array of the pipeline
    as the region found it, nothing said of the result array nor of the buffers of `T`, and every other unscoped buffer
    at its contents at the region's entry. -/
theorem run_main : θ_run defs (onTc (τ := τ) (main (F := Bits))) (s₀ m ρ)
    (Pipeline.RDat.FramePostR (cfgs 0) (fun c => (dats m 0 c).toRForget fgt) T (fun c b => V0 m c (Proc.devRef .tc b))) :=
  Pipeline.RDat.θ_run_frame_around_T cfgs (0 : Fin 1) launch0 defs₀ Variants.none (fun c => (dats m 0 c).toRForget fgt) T m ρ main
    (hbody := fun c => (body_obligation m c).toRForget) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame: the two argument tables end as launched. The table of rows is an input window's array, which the run
    leaves as the region found it; the table of given distances is no window's array and no line after the region
    writes it. Neither is written by a line before the region. -/
theorem frame : θ_run defs (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Pipeline.RDat.FramePostR.arr_in h c 0 rfl).trans ((A_eq m c 0).trans (V_main_arg0 m c)),
      ((h c).2 main_arg1 (Finset.mem_sdiff.mpr
        ⟨Pipeline.mem_restRefs_of main_arg1 (by decide) (by decide), by decide⟩)).trans (V_main_arg1 m c)⟩)
    (run_main m ρ)

end Cert.Kernel.Run

end
-- ==== Proof.IdealBody.lean ====
/-
  The kernel body as one step of separation logic, at any float instance. Called on four whole staging buffers — the
  tile of rows, the tile of given distances, the twenty context rows, and the 8 × 128 result block — it loads the first
  three whole, computes, loads the result block (a value it never uses) and stores the result block whole. So the three
  input buffers end as they were, and the result buffer ends holding `outBlock`: the body's second payload of its first
  payload of the three loaded contents, whatever the result buffer held before.
-/
import proofs.«415024_j66546223284649_3_alg».proof.Proof.Gen.KernelIdeal.Skeleton
import proofs.«415024_j66546223284649_3_alg».proof.Proof.Gen.KernelIdeal.Launch
import proofs.«415024_j66546223284649_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each the whole of its buffer -/

abbrev rRows : Rect S12800x64 := Rect.unit (s := S12800x64) ![0, 0] S12800x64.size inb_S12800x64_S12800x64_0_0
abbrev rDist : Rect S20x12800 := Rect.unit (s := S20x12800) ![0, 0] S20x12800.size inb_S20x12800_S20x12800_0_0
abbrev rCtx : Rect S20x64 := Rect.unit (s := S20x64) ![0, 0] S20x64.size inb_S20x64_S20x64_0_0
abbrev rOut : Rect S8x128 := Rect.unit (s := S8x128) ![0, 0] S8x128.size inb_S8x128_S8x128_0_0

/-- What the body leaves in the result buffer, from what the three input buffers hold: its one store, of the second
    payload of the first payload of the three loads. -/
def outBlock (i : grid0.Coords) (x0 : Vec F S12800x64 .f32) (x1 : Vec F S20x12800 .f32) (x2 : Vec F S20x64 .f32) :
    Vec F S8x128 .f32 :=
  View.canon [⟨rOut, k0_pay1 (k0_pay2 i (View.ld x0 rRows) (View.ld x1 rDist) (View.ld x2 rCtx))⟩]

/-- Each access is the whole of its buffer, so the result block is simply the second payload of the first payload of the
    three buffers' contents. -/
theorem outBlock_eq (i : grid0.Coords) (x0 : Vec F S12800x64 .f32) (x1 : Vec F S20x12800 .f32) (x2 : Vec F S20x64 .f32) :
    outBlock i x0 x1 x2 = k0_pay1 (k0_pay2 i x0 x1 x2) := by
  have hz : (![0, 0] : Fin 2 → Nat) = fun _ => 0 := funext fun a => by fin_cases a <;> rfl
  unfold outBlock
  rw [View.canon_unit_zero hz, View.ld_unit_zero hz, View.ld_unit_zero hz, View.ld_unit_zero hz]

/-- The one store covers the result buffer. -/
theorem cover_out (p0 : Vec F S8x128 .f32) (y : S8x128.Idx) :
    ∃ pc ∈ ([⟨rOut, p0⟩] : List (View.Piece (Elt F) S8x128 .f32)), y ∈ pc.1.set :=
  View.cover_of_tiled [⟨rOut, p0⟩] S8x128.size (by rfl) y

set_option maxHeartbeats 1000000 in
/-- The body's triple. -/
theorem sound_kernel (c : Dev nD) (E : Set ℕ) (i : grid0.Coords)
    (arg1 : Memref sig .tc .vmem S12800x64 .f32) (harg1 : arg1.IsWhole) (arg2 : Memref sig .tc .vmem S20x12800 .f32) (harg2 : arg2.IsWhole)
    (arg3 : Memref sig .tc .vmem S20x64 .f32) (harg3 : arg3.IsWhole) (arg4 : Memref sig .tc .vmem S8x128 .f32) (harg4 : arg4.IsWhole)
    (x0 : Vec F S12800x64 .f32) (x1 : Vec F S20x12800 .f32) (x2 : Vec F S20x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock i x0 x1 x2)) -∗ K ⟨⟩))
      ⊢ wp frame (wpE (defs₀ (F := F)) Variants.none c none) E (cc0__loss_kernel i arg1 harg1 arg2 harg2 arg3 harg3 arg4 harg4) K := by
  simp only [cc0__loss_kernel_eq_skeleton]; unfold cc0__loss_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.KernelIdeal.Body

end
-- ==== Proof.LossSpec.lean ====
/-
  What both programs compute, as plain mathematics on the extended reals.

  The input is a table `x` of 200000 rows of 64 numbers and a table `dis` of 200000 × 20 given distances. The first
  twenty rows of `x` are the context rows. For a row `i` and a context row `j` the programs form, from the three
  inner products ⟨x_j, x_j⟩, ⟨x_i, x_i⟩ and ⟨x_j, x_i⟩, the clamped squared distance
  `max (⟨x_j,x_j⟩ + ⟨x_i,x_i⟩ − 2·⟨x_j,x_i⟩) 0`, its guarded square root (zero where the clamped value is not
  positive), and the absolute difference to `dis i j` (`gap`). The loss is the sum of these 4 000 000 terms divided by
  200000 (`loss`).

  The kernel walks the rows in sixteen tiles of 12800; the last tile runs 4800 rows past the table's end and keeps only
  the columns whose row number is below 200000 (`tileSum`). That the sixteen tile sums add up to the whole double sum is
  `Cert.LossLaw`'s business; here are only the definitions.
-/
import Idealize.ShloMosaic.PureOps.Ideal
import Idealize.ShloMosaic.Lib.ValueIdx

noncomputable section

namespace Cert.LossSpec

open Idealize.ShloMosaic Idealize.ShloMosaic.ValueIdx

/-- The float words the two programs share, read as extended reals: 0, 1, 2 and the row count 200000. -/
abbrev w0 : EReal := Ideal.ofBits .f32 0x00000000#32
abbrev w1 : EReal := Ideal.ofBits .f32 0x3F800000#32
abbrev w2 : EReal := Ideal.ofBits .f32 0x40000000#32
abbrev wN : EReal := Ideal.ofBits .f32 0x48435000#32

/-- The table of rows and the table of given distances. -/
abbrev Rows := (⟨2, ![200000, 64]⟩ : Shape).Idx → EReal
abbrev Dists := (⟨2, ![200000, 20]⟩ : Shape).Idx → EReal

/-- The inner product of two rows of 64. -/
def dotp (u v : Fin 64 → EReal) : EReal := ∑ k : Fin 64, u k * v k

/-- From the context row's squared norm `nc`, the row's squared norm `nx`, their inner product `d` and the given
    distance `g`: the squared distance clamped at zero, its square root where that is positive and zero elsewhere
    (the inner guard feeds the root a one there, never a non-positive number), and the absolute difference to `g`. -/
def gap (nc nx d g : EReal) : EReal :=
  let sq : EReal := max (nc + nx - w2 * d) w0
  let pos : BitVec 1 := Ideal.cmp .ogt sq w0
  let dist : EReal := Scalar.select pos (Ideal.sqrt (Scalar.select pos sq w1)) w0
  max (dist - g) (-(dist - g))

/-- Row `i` of the table. -/
def row (x : Rows) (i : Fin 200000) : Fin 64 → EReal := fun k => x (ix2 i k)

/-- Context row `j`: row `j` of the table, `j < 20`. -/
def ctx (x : Rows) (j : Fin 20) : Fin 64 → EReal := row x ⟨j.val, by have := j.isLt; omega⟩

/-- The term of row `i` against context row `j`. -/
def term (x : Rows) (dis : Dists) (i : Fin 200000) (j : Fin 20) : EReal :=
  gap (dotp (ctx x j) (ctx x j)) (dotp (row x i) (row x i)) (dotp (ctx x j) (row x i)) (dis (ix2 i j))

/-- The sum of all terms. -/
def grand (x : Rows) (dis : Dists) : EReal := ∑ i : Fin 200000, ∑ j : Fin 20, term x dis i j

/-- The loss: the sum divided by the row count. -/
def loss (x : Rows) (dis : Dists) : EReal := Ideal.div (grand x dis) wN

/-- What tile `t` contributes: over the twenty context rows and the tile's 12800 columns, the term of the row the
    column stands for where that row exists, nothing where the tile has run past the table's end. -/
def tileSum (x : Rows) (dis : Dists) (t : Fin 16) : EReal :=
  ∑ j : Fin 20, ∑ r : Fin 12800,
    if h : t.val * 12800 + r.val < 200000 then term x dis ⟨t.val * 12800 + r.val, h⟩ j else 0

end Cert.LossSpec

end
-- ==== Proof.TileTerm.lean ====
/-
  The kernel's arithmetic at one entry. The body's first payload is, at context row `j` and column `r` of the tile at
  grid coordinate `i`, the term `LossSpec.gap` of the three inner products of context row `j` and tile row `r` and
  of the given distance at `(j, r)` — where the column's row number `i·12800 + r` is below 200000 — and zero elsewhere
  (`tile_term`). The body's second payload puts the sum of all those entries at the corner `(0, 0)` of an 8 × 128 block
  of zeros (`corner_sum`).
-/
import proofs.«415024_j66546223284649_3_alg».proof.Proof.Gen.KernelIdeal.Skeleton
import proofs.«415024_j66546223284649_3_alg».proof.Proof.LossSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileTerm

open Cert.KernelIdeal Cert.KernelIdeal.Gen Idealize.ShloMosaic Idealize.ShloMosaic.ValueIdx Cert.LossSpec

/-! ## Words, and the layout operations read at an entry -/

/-- The word of 1.0 is the extended real one. -/
theorem one_word : Ideal.ofBits .f32 0x3F800000#32 = 1 := by
  simp [Ideal.ofBits, Ideal.ieee, -EReal.coe_mul]; norm_num

/-- A column of twenty cast to 20 × 1 reads, at (p, u), the column at p. -/
theorem cast_col {α : Type} (x : S20.Idx → α) (h : S20.ShapeCasts S20x1) (p : Fin 20) (u : Fin 1) :
    shapeCast S20x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A 20 × 1 column broadcast over 12800 columns reads, at (p, q), the column at (p, 0). -/
theorem bcast_col {α : Type} (v : S20x1.Idx → α) (h : S20x1.Broadcasts S20x12800) (p : Fin 20) (q : Fin 12800) :
    broadcastTo S20x12800 v h (ix2 p q) = v (ix2 p (0 : Fin 1)) := by
  refine broadcastTo_apply v h (ix2 p q) (ix2 p (0 : Fin 1)) fun ax => ?_
  match ax with
  | ⟨0, _⟩ =>
    show p.val = if (20 : Nat) = 1 then 0 else p.val
    rw [if_neg (by decide)]
  | ⟨1, _⟩ => rfl

/-- A 1 × 12800 row broadcast over twenty rows reads, at (p, q), the row at (0, q). -/
theorem bcast_row {α : Type} (v : S1x12800.Idx → α) (h : S1x12800.Broadcasts S20x12800) (p : Fin 20) (q : Fin 12800) :
    broadcastTo S20x12800 v h (ix2 p q) = v (ix2 (0 : Fin 1) q) :=
  broadcastTo_1b_ab_apply v h p q

/-- The lane sum of a 20 × 64 vector at row p is the sum of that row. -/
theorem lane_sum (x : FVec Ideal S20x64 .f32) (hφ : FKind.Formats .f32)
    (hacc : (0x00000000#32 : BitVec 32) = 0x00000000#32) (p : Fin 20) :
    multiReduction (F := Ideal) .add [1] S20 x 0x00000000#32 reduces_S20x64_S20 hφ hacc (ix1 p)
      = ∑ k : Fin 64, x (ix2 p k) := by
  refine (Ideal.multiReduction_add_single x 0x00000000#32 reduces_S20x64_S20 hφ hacc (ix1 p)).trans ?_
  refine Finset.sum_congr rfl fun k _ => congrArg x ?_
  funext a; refine Fin.ext ?_
  match a with
  | ⟨0, _⟩ => rfl
  | ⟨1, _⟩ => rfl

/-! ## The two products read at an entry

Both products contract axis 1 of each operand. At the result's entry `i` and the contraction position `q` the left operand is
read at (`i 0`, `q`) and the right operand at (`i 1`, `q`): one lemma per operand and axis, then the entry as a sum over
`Fin 64`. -/

theorem lhs_cross_0 (i : S20x12800.Idx) (q : dot_S20x64_S12800x64_S20x12800_1_1_0_0_n_n.contr.Idx) :
    (dot_S20x64_S12800x64_S20x12800_1_1_0_0_n_n.lhsIdx i q 0).val = (i 0).val := by
  unfold DotDims.lhsIdx
  rw [dif_neg (show ¬(0 : Fin S20x64.rank) ∈ dot_S20x64_S12800x64_S20x12800_1_1_0_0_n_n.lhsBatch by decide), dif_pos (show (0 : Fin S20x64.rank) ∈ dot_S20x64_S12800x64_S20x12800_1_1_0_0_n_n.lhsNonContracting by decide)]
  rfl
theorem lhs_cross_1 (i : S20x12800.Idx) (q : dot_S20x64_S12800x64_S20x12800_1_1_0_0_n_n.contr.Idx) :
    (dot_S20x64_S12800x64_S20x12800_1_1_0_0_n_n.lhsIdx i q 1).val = (q ⟨0, by decide⟩).val :=
  dot_S20x64_S12800x64_S20x12800_1_1_0_0_n_n.lhsIdx_val_of_single rfl i q
theorem rhs_cross_0 (i : S20x12800.Idx) (q : dot_S20x64_S12800x64_S20x12800_1_1_0_0_n_n.contr.Idx) :
    (dot_S20x64_S12800x64_S20x12800_1_1_0_0_n_n.rhsIdx i q 0).val = (i 1).val := by
  unfold DotDims.rhsIdx
  rw [dif_neg (show ¬(0 : Fin S12800x64.rank) ∈ dot_S20x64_S12800x64_S20x12800_1_1_0_0_n_n.rhsBatch by decide), dif_pos (show (0 : Fin S12800x64.rank) ∈ dot_S20x64_S12800x64_S20x12800_1_1_0_0_n_n.rhsNonContracting by decide)]
  rfl
theorem rhs_cross_1 (i : S20x12800.Idx) (q : dot_S20x64_S12800x64_S20x12800_1_1_0_0_n_n.contr.Idx) :
    (dot_S20x64_S12800x64_S20x12800_1_1_0_0_n_n.rhsIdx i q 1).val = (q ⟨0, by decide⟩).val :=
  dot_S20x64_S12800x64_S20x12800_1_1_0_0_n_n.rhsIdx_val_of_single rfl i q

/-- The product of the twenty context rows with the tile's rows, transposed: entry (p, q) is the inner product of row p of the left operand and row q of the right. -/
theorem cross_apply (x : FVec Ideal S20x64 .f32) (y : FVec Ideal S12800x64 .f32) (p : Fin 20) (q : Fin 12800) :
    matmul dot_S20x64_S12800x64_S20x12800_1_1_0_0_n_n none x y (constant (F := Ideal) S20x12800 .f32 0x00000000#32) (ix2 p q)
      = ∑ k : Fin 64, x (ix2 p k) * y (ix2 q k) := by
  simp only [matmul]
  rw [Ideal.matmul_constant_zero_apply, ← Equiv.sum_comp (ValueIdx.contrEquiv1 dot_S20x64_S12800x64_S20x12800_1_1_0_0_n_n 64 rfl rfl).symm]
  refine Finset.sum_congr rfl fun k _ => ?_
  have hk := ValueIdx.contrEquiv1_symm_val dot_S20x64_S12800x64_S20x12800_1_1_0_0_n_n 64 rfl rfl k
  have el : dot_S20x64_S12800x64_S20x12800_1_1_0_0_n_n.lhsIdx (ix2 p q) ((ValueIdx.contrEquiv1 dot_S20x64_S12800x64_S20x12800_1_1_0_0_n_n 64 rfl rfl).symm k) = ix2 p k := funext fun a => Fin.ext (by
    match a with
    | ⟨0, _⟩ => exact lhs_cross_0 _ _
    | ⟨1, _⟩ => exact (lhs_cross_1 _ _).trans hk)
  have er : dot_S20x64_S12800x64_S20x12800_1_1_0_0_n_n.rhsIdx (ix2 p q) ((ValueIdx.contrEquiv1 dot_S20x64_S12800x64_S20x12800_1_1_0_0_n_n 64 rfl rfl).symm k) = ix2 q k := funext fun a => Fin.ext (by
    match a with
    | ⟨0, _⟩ => exact rhs_cross_0 _ _
    | ⟨1, _⟩ => exact (rhs_cross_1 _ _).trans hk)
  rw [el, er]

theorem lhs_norm_0 (i : S1x12800.Idx) (q : dot_S1x64_S12800x64_S1x12800_1_1_0_0_n_n.contr.Idx) :
    (dot_S1x64_S12800x64_S1x12800_1_1_0_0_n_n.lhsIdx i q 0).val = (i 0).val := by
  unfold DotDims.lhsIdx
  rw [dif_neg (show ¬(0 : Fin S1x64.rank) ∈ dot_S1x64_S12800x64_S1x12800_1_1_0_0_n_n.lhsBatch by decide), dif_pos (show (0 : Fin S1x64.rank) ∈ dot_S1x64_S12800x64_S1x12800_1_1_0_0_n_n.lhsNonContracting by decide)]
  rfl
theorem lhs_norm_1 (i : S1x12800.Idx) (q : dot_S1x64_S12800x64_S1x12800_1_1_0_0_n_n.contr.Idx) :
    (dot_S1x64_S12800x64_S1x12800_1_1_0_0_n_n.lhsIdx i q 1).val = (q ⟨0, by decide⟩).val :=
  dot_S1x64_S12800x64_S1x12800_1_1_0_0_n_n.lhsIdx_val_of_single rfl i q
theorem rhs_norm_0 (i : S1x12800.Idx) (q : dot_S1x64_S12800x64_S1x12800_1_1_0_0_n_n.contr.Idx) :
    (dot_S1x64_S12800x64_S1x12800_1_1_0_0_n_n.rhsIdx i q 0).val = (i 1).val := by
  unfold DotDims.rhsIdx
  rw [dif_neg (show ¬(0 : Fin S12800x64.rank) ∈ dot_S1x64_S12800x64_S1x12800_1_1_0_0_n_n.rhsBatch by decide), dif_pos (show (0 : Fin S12800x64.rank) ∈ dot_S1x64_S12800x64_S1x12800_1_1_0_0_n_n.rhsNonContracting by decide)]
  rfl
theorem rhs_norm_1 (i : S1x12800.Idx) (q : dot_S1x64_S12800x64_S1x12800_1_1_0_0_n_n.contr.Idx) :
    (dot_S1x64_S12800x64_S1x12800_1_1_0_0_n_n.rhsIdx i q 1).val = (q ⟨0, by decide⟩).val :=
  dot_S1x64_S12800x64_S1x12800_1_1_0_0_n_n.rhsIdx_val_of_single rfl i q

/-- The product of one row with the tile's rows, transposed: entry (p, q) is the inner product of that row and row q of the right operand. -/
theorem norm_apply (x : FVec Ideal S1x64 .f32) (y : FVec Ideal S12800x64 .f32) (p : Fin 1) (q : Fin 12800) :
    matmul dot_S1x64_S12800x64_S1x12800_1_1_0_0_n_n none x y (constant (F := Ideal) S1x12800 .f32 0x00000000#32) (ix2 p q)
      = ∑ k : Fin 64, x (ix2 p k) * y (ix2 q k) := by
  simp only [matmul]
  rw [Ideal.matmul_constant_zero_apply, ← Equiv.sum_comp (ValueIdx.contrEquiv1 dot_S1x64_S12800x64_S1x12800_1_1_0_0_n_n 64 rfl rfl).symm]
  refine Finset.sum_congr rfl fun k _ => ?_
  have hk := ValueIdx.contrEquiv1_symm_val dot_S1x64_S12800x64_S1x12800_1_1_0_0_n_n 64 rfl rfl k
  have el : dot_S1x64_S12800x64_S1x12800_1_1_0_0_n_n.lhsIdx (ix2 p q) ((ValueIdx.contrEquiv1 dot_S1x64_S12800x64_S1x12800_1_1_0_0_n_n 64 rfl rfl).symm k) = ix2 p k := funext fun a => Fin.ext (by
    match a with
    | ⟨0, _⟩ => exact lhs_norm_0 _ _
    | ⟨1, _⟩ => exact (lhs_norm_1 _ _).trans hk)
  have er : dot_S1x64_S12800x64_S1x12800_1_1_0_0_n_n.rhsIdx (ix2 p q) ((ValueIdx.contrEquiv1 dot_S1x64_S12800x64_S1x12800_1_1_0_0_n_n 64 rfl rfl).symm k) = ix2 q k := funext fun a => Fin.ext (by
    match a with
    | ⟨0, _⟩ => exact rhs_norm_0 _ _
    | ⟨1, _⟩ => exact (rhs_norm_1 _ _).trans hk)
  rw [el, er]

/-! ## The mask -/

/-- For a tile number below sixteen and a column below 12800 the 32-bit words never wrap: the signed comparison of
    `n · 12800 + r` with 200000 is the comparison of the naturals. -/
theorem mask_word (n r : Nat) (hn : n < 16) (hr : r < 12800) :
    IntOp.cmpi .slt (IntOp.addi (Scalar.muli (BitVec.ofNat 32 n) 12800#32) (BitVec.ofNat 32 r)) 200000#32
      = if n * 12800 + r < 200000 then 1#1 else 0#1 := by
  have e : IntOp.addi (Scalar.muli (BitVec.ofNat 32 n) 12800#32) (BitVec.ofNat 32 r) = BitVec.ofNat 32 (n * 12800 + r) := by
    show BitVec.ofNat 32 n * BitVec.ofNat 32 12800 + BitVec.ofNat 32 r = _
    rw [← BitVec.ofNat_mul, ← BitVec.ofNat_add]
  rw [e]
  show BitVec.ofBool ((BitVec.ofNat 32 (n * 12800 + r)).slt 200000#32) = _
  have hl : (BitVec.ofNat 32 (n * 12800 + r)).toInt = ((n * 12800 + r : Nat) : Int) := by
    rw [BitVec.toInt_eq_toNat_cond, BitVec.toNat_ofNat]
    have hm : (n * 12800 + r) % 2 ^ 32 = n * 12800 + r := Nat.mod_eq_of_lt (by omega)
    rw [hm, if_pos (by omega)]
  have hr' : (200000#32 : BitVec 32).toInt = 200000 := by decide
  rw [BitVec.slt, hl, hr']
  by_cases h : n * 12800 + r < 200000
  · rw [if_pos h, decide_eq_true (by omega)]; rfl
  · rw [if_neg h, decide_eq_false (by omega)]; rfl

/-- The compare of the column's row number with 200000, read at (p, q) of tile n. -/
theorem mask_apply (n : Nat) (hn : n < 16) (p : Fin 20) (q : Fin 12800) :
    cmpi .slt (addi (broadcast S20x12800 (Scalar.muli (BitVec.ofNat 32 n) 12800#32))
        (iota .tc S20x12800 32 [1] iota_S20x12800_d1_w32)) (broadcast S20x12800 200000#32) (ix2 p q)
      = if n * 12800 + q.val < 200000 then 1#1 else 0#1 := by
  show IntOp.cmpi .slt (IntOp.addi (Scalar.muli (BitVec.ofNat 32 n) 12800#32)
      (iota .tc S20x12800 32 [1] iota_S20x12800_d1_w32 (ix2 p q))) 200000#32 = _
  rw [iota_single_apply]
  exact mask_word n q.val hn q.isLt

/-! ## The squared distance before the clamp, and what follows it -/

/-- The context row's squared norm spread along the rows, plus the tile row's squared norm (the product of a row of
    ones with the squares) spread along the columns, minus twice the cross product: at (p, q) these are the three inner
    products of row p of `A` and row q of `B`. -/
theorem sq_entry (A : FVec Ideal S20x64 .f32) (B : FVec Ideal S12800x64 .f32) (hφ : FKind.Formats .f32)
    (hacc : (0x00000000#32 : BitVec 32) = 0x00000000#32) (p : Fin 20) (q : Fin 12800) :
    subf
        (addf
          (broadcastTo S20x12800
            (shapeCast S20x1 (multiReduction (F := Ideal) .add [1] S20 (mulf A A) 0x00000000#32 reduces_S20x64_S20 hφ hacc)
              shapeCasts_S20_S20x1) broadcasts_S20x1_S20x12800)
          (broadcastTo S20x12800
            (matmul dot_S1x64_S12800x64_S1x12800_1_1_0_0_n_n none (broadcast S1x64 (Scalar.ofBits (F := Ideal) .f32 0x3F800000#32))
              (mulf B B) (constant (F := Ideal) S1x12800 .f32 0x00000000#32)) broadcasts_S1x12800_S20x12800))
        (mulf (broadcast S20x12800 (Scalar.ofBits (F := Ideal) .f32 0x40000000#32))
          (matmul dot_S20x64_S12800x64_S20x12800_1_1_0_0_n_n none A B (constant (F := Ideal) S20x12800 .f32 0x00000000#32)))
        (ix2 p q)
      = dotp (fun k => A (ix2 p k)) (fun k => A (ix2 p k)) + dotp (fun k => B (ix2 q k)) (fun k => B (ix2 q k))
          - w2 * dotp (fun k => A (ix2 p k)) (fun k => B (ix2 q k)) := by
  rw [subf_apply, addf_apply, mulf_apply, bcast_col, cast_col, lane_sum, bcast_row, norm_apply, cross_apply, broadcast_apply]
  refine congrArg₂ (· - ·) (congrArg₂ (· + ·) rfl ?_) rfl
  refine Finset.sum_congr rfl fun k _ => ?_
  show Ideal.ofBits .f32 0x3F800000#32 * (B (ix2 q k) * B (ix2 q k)) = _
  rw [one_word, one_mul]

/-- After the squared distance `Q`: the clamp at zero, the guarded root, the difference to the given distance `G`, its
    absolute value, and the mask `M`. At (p, q), where `Q` is `nc + nx − 2·d`, this is `gap nc nx d` of `G`'s entry
    under the mask's bit. -/
theorem tail_apply (M : IVec S20x12800 1) (Q G : FVec Ideal S20x12800 .f32) (p : Fin 20) (q : Fin 12800) (nc nx d : EReal)
    (hQ : Q (ix2 p q) = nc + nx - w2 * d) :
    select M
        (absf (subf
          (select
            (cmpf .ogt (maximumf Q (broadcast S20x12800 (Scalar.ofBits (F := Ideal) .f32 0x00000000#32)))
              (broadcast S20x12800 (Scalar.ofBits (F := Ideal) .f32 0x00000000#32)))
            (sqrt (select
              (cmpf .ogt (maximumf Q (broadcast S20x12800 (Scalar.ofBits (F := Ideal) .f32 0x00000000#32)))
                (broadcast S20x12800 (Scalar.ofBits (F := Ideal) .f32 0x00000000#32)))
              (maximumf Q (broadcast S20x12800 (Scalar.ofBits (F := Ideal) .f32 0x00000000#32)))
              (broadcast S20x12800 (Scalar.ofBits (F := Ideal) .f32 0x3F800000#32))))
            (broadcast S20x12800 (Scalar.ofBits (F := Ideal) .f32 0x00000000#32)))
          G))
        (broadcast S20x12800 (Scalar.ofBits (F := Ideal) .f32 0x00000000#32)) (ix2 p q)
      = Scalar.select (M (ix2 p q)) (gap nc nx d (G (ix2 p q))) w0 := by
  unfold gap
  rw [← hQ]
  rfl

theorem tile_term (i : grid0.Coords) (X0 : Vec Ideal S12800x64 .f32) (X1 : Vec Ideal S20x12800 .f32)
    (X2 : Vec Ideal S20x64 .f32) (j : Fin 20) (r : Fin 12800) :
    k0_pay2 (F := Ideal) i X0 X1 X2 (ix3 (0 : Fin 1) j r)
      = if (i 0).val * 12800 + r.val < 200000 then
          gap (dotp (fun k => X2 (ix2 j k)) (fun k => X2 (ix2 j k)))
            (dotp (fun k => X0 (ix2 r k)) (fun k => X0 (ix2 r k)))
            (dotp (fun k => X2 (ix2 j k)) (fun k => X0 (ix2 r k))) (X1 (ix2 j r))
        else 0 := by
  have hi : (i 0).val < 16 := (i 0).isLt
  unfold k0_pay2
  refine (shapeCast_ab_1ab_apply _ shapeCasts_S20x12800_S1x20x12800 (0 : Fin 1) j r).trans ?_
  rw [shapeCast_self X2, shapeCast_self X1]
  refine (tail_apply _ _ _ j r _ _ _ (sq_entry X2 X0 _ _ j r)).trans ?_
  rw [mask_apply (i 0).val hi j r]
  by_cases h : (i 0).val * 12800 + r.val < 200000
  · rw [if_pos h, if_pos h, select_one]
  · rw [if_neg h, if_neg h, select_zero]
    exact Ideal.ofBits_zero_f32

/-! ## The corner of the output block -/

/-- The indices of a 1 × 20 × 12800 vector are the pairs (row, column) … -/
def idxEquivTile : S1x20x12800.Idx ≃ Fin 20 × Fin 12800 where
  toFun i := (i 1, i 2)
  invFun p := ix3 (0 : Fin 1) p.1 p.2
  left_inv i := by
    funext a
    match a with
    | ⟨0, h0⟩ =>
      refine Fin.ext ?_
      have h : (i ⟨0, h0⟩).val < 1 := (i ⟨0, h0⟩).isLt
      exact (Nat.lt_one_iff.mp h).symm
    | ⟨1, _⟩ => rfl
    | ⟨2, _⟩ => rfl
  right_inv _ := rfl

/-- … so a sum over them is the double sum over rows and columns. -/
theorem sum_tile {M : Type*} [AddCommMonoid M] (f : S1x20x12800.Idx → M) :
    ∑ i, f i = ∑ j : Fin 20, ∑ r : Fin 12800, f (ix3 (0 : Fin 1) j r) := by
  rw [← Equiv.sum_comp idxEquivTile.symm f, Fintype.sum_prod_type]
  rfl

/-- The total of a 1 × 20 × 12800 vector, cast to 1 × 1 × 1 and read at its one entry, is the double sum. -/
theorem total_apply (v : FVec Ideal S1x20x12800 .f32) (hφ : FKind.Formats .f32)
    (hacc : (0x00000000#32 : BitVec 32) = 0x00000000#32) :
    extractAt ![0, 0, 0]
        (shapeCast S1x1x1 (multiReduction (F := Ideal) .add [1, 2] S1 v 0x00000000#32 reduces_S1x20x12800_S1 hφ hacc)
          shapeCasts_S1_S1x1x1) inpos_S1x1x1_p0_0_0
      = ∑ j : Fin 20, ∑ r : Fin 12800, v (ix3 (0 : Fin 1) j r) := by
  unfold extractAt
  refine (shapeCast_apply _ shapeCasts_S1_S1x1x1 _ (ix1 (0 : Fin 1)) ?_).trans ?_
  · rw [Shape.rowMajor_val_one, Shape.rowMajor_val_three]
    rfl
  · exact (Ideal.multiReduction_add_total v 0x00000000#32 reduces_S1x20x12800_S1 (by decide) hφ hacc _).trans (sum_tile v)

/-- A coordinate below 128, as a 32-bit word, equals the zero word exactly when it is zero. -/
theorem eq_zero_word (n : Nat) (hn : n < 128) :
    IntOp.cmpi .eq (BitVec.ofNat 32 n) 0#32 = if n = 0 then 1#1 else 0#1 := by
  by_cases h0 : n = 0
  · subst h0; rfl
  · rw [if_neg h0]
    show BitVec.ofBool (BitVec.ofNat 32 n == 0#32) = 0#1
    have hne : (BitVec.ofNat 32 n == 0#32) = false := by
      rw [beq_eq_false_iff_ne]
      intro he
      have ht := congrArg BitVec.toNat he
      rw [BitVec.toNat_ofNat, Nat.mod_eq_of_lt (by omega)] at ht
      exact h0 ht
    rw [hne]; rfl

/-- The two compares of the block's coordinates with zero, joined: the bit of the corner (0, 0). -/
theorem corner_apply (a : Fin 8) (b : Fin 128) :
    andi (cmpi .eq (iota .tc S8x128 32 [0] iota_S8x128_d0_w32) (broadcast S8x128 0#32))
        (cmpi .eq (iota .tc S8x128 32 [1] iota_S8x128_d1_w32) (broadcast S8x128 0#32)) (ix2 a b)
      = if a.val = 0 ∧ b.val = 0 then 1#1 else 0#1 := by
  show IntOp.andi (IntOp.cmpi .eq (iota .tc S8x128 32 [0] iota_S8x128_d0_w32 (ix2 a b)) 0#32)
      (IntOp.cmpi .eq (iota .tc S8x128 32 [1] iota_S8x128_d1_w32 (ix2 a b)) 0#32) = _
  rw [iota_single_apply, iota_single_apply]
  show IntOp.andi (IntOp.cmpi .eq (BitVec.ofNat 32 a.val) 0#32) (IntOp.cmpi .eq (BitVec.ofNat 32 b.val) 0#32) = _
  rw [eq_zero_word a.val (by have := a.isLt; omega), eq_zero_word b.val b.isLt]
  by_cases ha : a.val = 0
  · by_cases hb : b.val = 0
    · rw [if_pos ha, if_pos hb, if_pos ⟨ha, hb⟩]; rfl
    · rw [if_pos ha, if_neg hb, if_neg (fun h => hb h.2)]; rfl
  · by_cases hb : b.val = 0
    · rw [if_neg ha, if_pos hb, if_neg (fun h => ha h.1)]; rfl
    · rw [if_neg ha, if_neg hb, if_neg (fun h => ha h.1)]; rfl

theorem corner_sum (v : FVec Ideal S1x20x12800 .f32) (a : Fin 8) (b : Fin 128) :
    k0_pay1 (F := Ideal) v (ix2 a b)
      = if a.val = 0 ∧ b.val = 0 then ∑ j : Fin 20, ∑ r : Fin 12800, v (ix3 (0 : Fin 1) j r) else 0 := by
  unfold k0_pay1
  refine (select_apply _ _ _ (ix2 a b)).trans ?_
  rw [corner_apply a b, broadcast_apply, broadcast_apply, total_apply v]
  by_cases h : a.val = 0 ∧ b.val = 0
  · rw [if_pos h, if_pos h, select_one]
  · rw [if_neg h, if_neg h, select_zero]
    exact Ideal.ofBits_zero_f32

end Cert.KernelIdeal.TileTerm

end
-- ==== Proof.IdealRun.lean ====
/-
  The idealized kernel's run. Sixteen grid points; at point `t` the pipeline hands the body the tile of rows
  `12800·t …` and the matching tile of given distances, both fetched afresh, the twenty context rows, fetched once,
  and a result block. The last tile overhangs the tables by 4800 rows: its fetch lands only the 8000 rows that exist and
  leaves the rest of the buffer at words nothing names. The body's lane mask keeps exactly the columns whose row
  exists, and each column of its two matrix products reads only its own row, so the result block does not depend on
  those words (`out_indep`): it is the block computed from the tiles filled out with zeros (`outBlk`). With that the
  body obligation holds at every point, the launch theorem gives the run, and the argument tables end unchanged.
-/
import proofs.«415024_j66546223284649_3_alg».proof.Proof.Gen.KernelIdeal.Frame
import proofs.«415024_j66546223284649_3_alg».proof.Proof.IdealBody
import proofs.«415024_j66546223284649_3_alg».proof.Proof.TileTerm

set_option maxRecDepth 16384

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## How much of each tile exists -/

/-- The grid's one coordinate at point `t` is `t`. -/
theorem coord_val : ∀ t : Fin cfg0.N, ((grid0.coords t) 0).val = t.val :=
  (by decide +kernel : ∀ t : Fin grid0.N, ((grid0.coords t) 0).val = t.val)

/-- The tile of rows at point `t` has `min 12800 (200000 − 12800·t)` rows inside the table, all 64 columns. -/
theorem xsize_rows : ∀ t : Fin cfg0.N, win0_0.xsize (grid0.coords t) 0 = min 12800 (200000 - t.val * 12800)
    ∧ win0_0.xsize (grid0.coords t) 1 = 64 :=
  (by decide +kernel : ∀ t : Fin grid0.N, win0_0.xsize (grid0.coords t) 0 = min 12800 (200000 - t.val * 12800)
    ∧ win0_0.xsize (grid0.coords t) 1 = 64)

/-- The tile of given distances likewise: all 20 context rows, that many columns. -/
theorem xsize_dist : ∀ t : Fin cfg0.N, win0_1.xsize (grid0.coords t) 0 = 20
    ∧ win0_1.xsize (grid0.coords t) 1 = min 12800 (200000 - t.val * 12800) :=
  (by decide +kernel : ∀ t : Fin grid0.N, win0_1.xsize (grid0.coords t) 0 = 20
    ∧ win0_1.xsize (grid0.coords t) 1 = min 12800 (200000 - t.val * 12800))

/-- A tile row whose row number is below 200000 is one the fetch lands. -/
theorem moved_rows (t : Fin cfg0.N) (r : Fin 12800) (k : Fin 64) (h : t.val * 12800 + r.val < 200000) :
    win0_0.moved (grid0.coords t) (ix2 r k) = true :=
  (win0_0.moved_iff _ _).mpr fun a => by
    have hx := xsize_rows t
    match a with
    | ⟨0, _⟩ => show r.val < win0_0.xsize (grid0.coords t) 0; rw [hx.1]; have := r.isLt; omega
    | ⟨1, _⟩ => show k.val < win0_0.xsize (grid0.coords t) 1; rw [hx.2]; exact k.isLt

theorem moved_dist (t : Fin cfg0.N) (j : Fin 20) (r : Fin 12800) (h : t.val * 12800 + r.val < 200000) :
    win0_1.moved (grid0.coords t) (ix2 j r) = true :=
  (win0_1.moved_iff _ _).mpr fun a => by
    have hx := xsize_dist t
    match a with
    | ⟨0, _⟩ => show j.val < win0_1.xsize (grid0.coords t) 0; rw [hx.1]; exact j.isLt
    | ⟨1, _⟩ => show r.val < win0_1.xsize (grid0.coords t) 1; rw [hx.2]; have := r.isLt; omega

/-! ## The result block does not depend on what lies past the tables' end -/

/-- Two fillers of the rows tile give the same entry where the fetch landed it. -/
theorem fill_rows_eq (t : Fin cfg0.N) (d d' : S12800x64.Idx → Elt Ideal .f32) (g : (win0_0.xblock (grid0.coords t)).Idx → Elt Ideal .f32)
    (r : Fin 12800) (k : Fin 64) (h : t.val * 12800 + r.val < 200000) :
    win0_0.fill (grid0.coords t) d g (ix2 r k) = win0_0.fill (grid0.coords t) d' g (ix2 r k) := by
  unfold Window.fill; rw [dif_pos (moved_rows t r k h), dif_pos (moved_rows t r k h)]

theorem fill_dist_eq (t : Fin cfg0.N) (d d' : S20x12800.Idx → Elt Ideal .f32) (g : (win0_1.xblock (grid0.coords t)).Idx → Elt Ideal .f32)
    (j : Fin 20) (r : Fin 12800) (h : t.val * 12800 + r.val < 200000) :
    win0_1.fill (grid0.coords t) d g (ix2 j r) = win0_1.fill (grid0.coords t) d' g (ix2 j r) := by
  unfold Window.fill; rw [dif_pos (moved_dist t j r h), dif_pos (moved_dist t j r h)]

/-- The result block computed from the two tiles filled out one way is the block computed from them filled out another
    way: a masked column contributes zero, an unmasked one reads only entries the fetch landed. -/
theorem out_indep (t : Fin cfg0.N) (d0 d0' : S12800x64.Idx → Elt Ideal .f32) (g0 : (win0_0.xblock (grid0.coords t)).Idx → Elt Ideal .f32)
    (d1 d1' : S20x12800.Idx → Elt Ideal .f32) (g1 : (win0_1.xblock (grid0.coords t)).Idx → Elt Ideal .f32) (x2 : Vec Ideal S20x64 .f32) :
    Body.outBlock (F := Ideal) (grid0.coords t) (win0_0.fill (grid0.coords t) d0 g0) (win0_1.fill (grid0.coords t) d1 g1) x2
      = Body.outBlock (F := Ideal) (grid0.coords t) (win0_0.fill (grid0.coords t) d0' g0) (win0_1.fill (grid0.coords t) d1' g1) x2 := by
  rw [Body.outBlock_eq, Body.outBlock_eq]
  refine congrArg k0_pay1 (funext fun q => ?_)
  obtain ⟨a, j, r, rfl⟩ : ∃ (a : Fin 1) (j : Fin 20) (r : Fin 12800), q = ix3 a j r := ⟨q 0, q 1, q 2, eq_ix3 q⟩
  obtain rfl : a = 0 := Subsingleton.elim _ _
  rw [TileTerm.tile_term, TileTerm.tile_term, coord_val t]
  by_cases h : t.val * 12800 + r.val < 200000
  · rw [if_pos h, if_pos h]
    simp only [fill_rows_eq t d0 d0' g0 r _ h, fill_dist_eq t d1 d1' g1 j r h]
  · rw [if_neg h, if_neg h]

/-! ## The proof data -/

/-- The tiles at point `t`, filled out with zeros past the tables' end; the context rows; the result block. -/
def rowsBlk (c : Dev nD) (t : Fin cfg0.N) : S12800x64.Idx → Elt Ideal .f32 :=
  win0_0.fill (grid0.coords t) (fun _ => (0 : EReal)) (iblk m c 0 t)
def distBlk (c : Dev nD) (t : Fin cfg0.N) : S20x12800.Idx → Elt Ideal .f32 :=
  win0_1.fill (grid0.coords t) (fun _ => (0 : EReal)) (iblk m c 1 t)
def outBlk (c : Dev nD) (t : Fin cfg0.N) : S8x128.Idx → Elt Ideal .f32 :=
  Body.outBlock (F := Ideal) (grid0.coords t) (rowsBlk m c t) (distBlk m c t) (iblk m c 2 t)

/-- The proof data of the one pipeline on core `c`: the arrays as the region finds them; after the body the two tiles'
    buffers and the context rows' buffer as fetched and the result's at `outBlk`; the class's invariant; nothing owed;
    full shares. -/
def dats (_ : Fin 1) (c : Dev nD) : Dat τ (Elt Ideal) Unit ℕ (UR sig nD τ) ℕ cfg0 c where
  A w := V m c (Pipeline.arrRef spec0 w)
  after w t := match w with
    | ⟨0, _⟩ => rowsBlk m c t
    | ⟨1, _⟩ => distBlk m c t
    | ⟨2, _⟩ => iblk m c 2 t
    | ⟨3, _⟩ => outBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = rowsBlk m c t := by dsimp only [dats]
theorem after_dist (c : Dev nD) (t : Fin cfg0.N) : (dats m 0 c).after 1 t = distBlk m c t := by dsimp only [dats]
theorem after_ctx (c : Dev nD) (t : Fin cfg0.N) : (dats m 0 c).after 2 t = iblk m c 2 t := by dsimp only [dats]
theorem after_out (c : Dev nD) (t : Fin cfg0.N) : (dats m 0 c).after 3 t = outBlk m c t := by dsimp only [dats]

/-- What the body finds: each tile just fetched — its block where the table has rows, `d` elsewhere —, -/
theorem before_rows (c : Dev nD) (t : Fin cfg0.N) (d) :
    (dats m 0 c).before 0 t d = win0_0.fill (grid0.coords t) d (iblk m c 0 t) := by
  unfold Dat.before; rw [if_pos (fetch0_0 t)]; rfl
theorem before_dist (c : Dev nD) (t : Fin cfg0.N) (d) :
    (dats m 0 c).before 1 t d = win0_1.fill (grid0.coords t) d (iblk m c 1 t) := by
  unfold Dat.before; rw [if_pos (fetch0_1 t)]; rfl
/-- the context rows at every point, fetched there or not. -/
theorem before_ctx (c : Dev nD) (t : Fin cfg0.N) (d) : (dats m 0 c).before 2 t d = iblk m c 2 t :=
  before0_2_of m (dats m 0 c) (A_eq m c 2) (after_ctx m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the two tiles' buffers stated where the tables have rows, the other two whole. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ (∃ d, owns (c : Thread nD τ) (st0_1 t) fullShare
        ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t))

/-- The body at any point: the tiles arrive filled out with whatever the fetch left past the tables' end, the body leaves
    them so, and its result block is `outBlk` whatever that was (`out_indep`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_rows m c t d0, before_dist m c t d1, before_ctx m c t d2]
  have hx : (cfg0.win 0).cut (cfg0.grid.coords t) ((dats m 0 c).after 0 t) = iblk m c 0 t := by
    rw [after_rows]; exact win0_0.cut_fill _ _ _
  have hy : (cfg0.win 1).cut (cfg0.grid.coords t) ((dats m 0 c).after 1 t) = iblk m c 1 t := by
    rw [after_dist]; exact win0_1.cut_fill _ _ _
  have ho : (dats m 0 c).after 3 t = Body.outBlock (F := Ideal) (grid0.coords t)
      (win0_0.fill (grid0.coords t) d0 (iblk m c 0 t)) (win0_1.fill (grid0.coords t) d1 (iblk m c 1 t)) (iblk m c 2 t) := by
    rw [after_out]; unfold outBlk rowsBlk distBlk; exact out_indep t _ _ _ _ _ _ _
  rw [hx, hy, ho, after_ctx]
  iapply (Body.sound_kernel (F := Ideal) c Set.univ (grid0.coords t) _ _ _ _ _ _ _ _
    (win0_0.fill (grid0.coords t) d0 (iblk m c 0 t)) (win0_1.fill (grid0.coords t) d1 (iblk m c 1 t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexists d1; iexact H1
  isplitl [H2]; · iexact H2
  iexact H3

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- From any memory with zero counters every weakly fair execution of @main ends, with every array of the pipeline at what
    the proof data computes and every other unscoped buffer as the lines after the region leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the two argument tables end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Run

end
-- ==== Proof.LossLaw.lean ====
/-
  Two regroupings of finite sums of extended reals. Addition there is commutative and associative, so terms may be
  regrouped freely; no term needs to be finite.

  `tiles_cover`: the sixteen tiles of 12800 columns, the last one cut at row 200000, cover each of the 200000 rows
  exactly once, so the tile sums add up to the whole double sum.

  `spread_total`: a 128 × 128 array that holds the value of tile `t` at row `8t`, column 0, and zero everywhere else
  (`spread`) sums to the sum of the sixteen values.
-/
import proofs.«415024_j66546223284649_3_alg».proof.Proof.LossSpec

noncomputable section

namespace Cert.LossLaw

open Idealize.ShloMosaic Idealize.ShloMosaic.ValueIdx Cert.LossSpec

/-- Sixteen runs of 12800 consecutive numbers, cut at 200000, list each number below 200000 exactly once: a sum
    over the runs, with zero written where a run has passed 200000, is the sum over the numbers below 200000. -/
theorem sum_tiles {M : Type*} [AddCommMonoid M] (f : Fin 200000 → M) :
    ∑ t : Fin 16, ∑ r : Fin 12800,
        (if h : t.val * 12800 + r.val < 200000 then f ⟨t.val * 12800 + r.val, h⟩ else 0)
      = ∑ i : Fin 200000, f i := by
  -- `g` extends `f` by zero to all natural numbers
  let g : ℕ → M := fun n => if h : n < 200000 then f ⟨n, h⟩ else 0
  have hR : ∑ i : Fin 200000, f i = ∑ n ∈ Finset.range 200000, g n := by
    rw [← Fin.sum_univ_eq_sum_range]
    refine Finset.sum_congr rfl fun i _ => ?_
    show f i = if h : i.val < 200000 then f ⟨i.val, h⟩ else 0
    rw [dif_pos i.isLt]
  -- the pair (t, r) stands for the number 12800·t + r below 16·12800
  have hL : ∑ t : Fin 16, ∑ r : Fin 12800,
        (if h : t.val * 12800 + r.val < 200000 then f ⟨t.val * 12800 + r.val, h⟩ else 0)
      = ∑ k : Fin (16 * 12800), g k.val := by
    rw [← Fintype.sum_prod_type', ← Equiv.sum_comp (finProdFinEquiv (m := 16) (n := 12800))]
    refine Finset.sum_congr rfl fun p _ => ?_
    have hv : (finProdFinEquiv p).val = p.1.val * 12800 + p.2.val := by
      rw [finProdFinEquiv_apply_val]; omega
    rw [hv]
  -- 16·12800 = 200000 + 4800, and `g` is zero on the last 4800 numbers
  rw [hL, hR, Fin.sum_univ_eq_sum_range g (16 * 12800),
    show 16 * 12800 = 200000 + 4800 from rfl, Finset.sum_range_add]
  have hT : ∑ n ∈ Finset.range 4800, g (200000 + n) = 0 := by
    refine Finset.sum_eq_zero fun n _ => ?_
    show (if h : 200000 + n < 200000 then f ⟨200000 + n, h⟩ else 0) = 0
    rw [dif_neg (by omega)]
  rw [hT, add_zero]

theorem tiles_cover (x : Rows) (dis : Dists) : ∑ t : Fin 16, tileSum x dis t = grand x dis := by
  unfold tileSum grand
  -- bring the sum over the twenty context rows outside on both sides
  rw [Finset.sum_comm]
  rw [Finset.sum_comm (s := (Finset.univ : Finset (Fin 200000)))]
  refine Finset.sum_congr rfl fun j _ => ?_
  exact sum_tiles (fun i => term x dis i j)

/-- Sixteen values laid out in a 128 × 128 array: value `t` at row `8t`, column 0; zero elsewhere. -/
def spread (f : Fin 16 → EReal) : (⟨2, ![128, 128]⟩ : Shape).Idx → EReal :=
  fun p => if h : (p 0).val % 8 = 0 ∧ (p 1).val = 0 then f ⟨(p 0).val / 8, by have h0 : (p 0).val < 128 := (p 0).isLt; omega⟩ else 0

/-- `spread` read at the index with coordinates `a`, `b`. -/
theorem spread_ix2 (f : Fin 16 → EReal) (a b : Fin 128) :
    spread f (ix2 a b)
      = if h : a.val % 8 = 0 ∧ b.val = 0 then f ⟨a.val / 8, by have := a.isLt; omega⟩ else 0 := rfl

/-- A function on the numbers below 128 that vanishes off the multiples of 8 sums to its values at the sixteen
    multiples of 8: the number 8·t + c stands for the pair (t, c), and only c = 0 contributes. -/
theorem sum_mult8 {M : Type*} [AddCommMonoid M] (F : Fin 128 → M) (hF : ∀ a : Fin 128, a.val % 8 ≠ 0 → F a = 0) :
    ∑ a : Fin 128, F a = ∑ t : Fin 16, F ⟨8 * t.val, by have := t.isLt; omega⟩ := by
  rw [← Equiv.sum_comp (finProdFinEquiv (m := 16) (n := 8)) F, Fintype.sum_prod_type]
  refine Finset.sum_congr rfl fun t _ => ?_
  rw [Finset.sum_eq_single (0 : Fin 8)]
  · congr 1
    apply Fin.ext
    rw [finProdFinEquiv_apply_val]
    show (0 : Fin 8).val + 8 * t.val = 8 * t.val
    have h0 : (0 : Fin 8).val = 0 := rfl
    omega
  · intro c _ hc
    apply hF
    rw [finProdFinEquiv_apply_val]
    have hc' : c.val ≠ 0 := fun h => hc (Fin.ext h)
    have := c.isLt
    show (c.val + 8 * t.val) % 8 ≠ 0
    omega
  · intro h; exact absurd (Finset.mem_univ _) h

theorem spread_total (f : Fin 16 → EReal) : ∑ p : (⟨2, ![128, 128]⟩ : Shape).Idx, spread f p = ∑ t : Fin 16, f t := by
  rw [sum_idx2]
  -- in a row only column 0 can hold a value
  have hin : ∀ a : Fin 128, ∑ b : Fin 128, spread f (ix2 a b)
      = if h : a.val % 8 = 0 then f ⟨a.val / 8, by have := a.isLt; omega⟩ else 0 := by
    intro a
    rw [Finset.sum_eq_single (0 : Fin 128)]
    · rw [spread_ix2]
      by_cases h : a.val % 8 = 0
      · rw [dif_pos ⟨h, rfl⟩, dif_pos h]
      · rw [dif_neg (fun hh => h hh.1), dif_neg h]
    · intro b _ hb
      rw [spread_ix2, dif_neg]
      intro hh; exact hb (Fin.ext hh.2)
    · intro h; exact absurd (Finset.mem_univ _) h
  -- and only the rows 8·t hold one: the value of tile t
  rw [Finset.sum_congr rfl fun a _ => hin a, sum_mult8]
  · refine Finset.sum_congr rfl fun t _ => ?_
    have h8 : (8 * t.val) % 8 = 0 := by omega
    rw [dif_pos h8]
    congr 1
    apply Fin.ext
    show 8 * t.val / 8 = t.val
    omega
  · intro a ha
    rw [dif_neg ha]

end Cert.LossLaw

end
-- ==== Proof.IdealValue.lean ====
/-
  What the idealized kernel's result is. At point `t` the rows tile holds rows `12800·t + r` of the table where
  those exist, the distances tile the matching columns of the transposed distance table, and the context buffer the
  first twenty rows; so the result block of point `t` holds `LossSpec.tileSum` of tile `t` at its corner and zeros
  elsewhere. The sixteen blocks tile the 128 × 128 result array, which therefore ends as `LossLaw.spread` of the tile
  sums. The lines after the region sum that array and divide by the row count: the loss.
-/
import proofs.«415024_j66546223284649_3_alg».proof.Proof.IdealRun
import proofs.«415024_j66546223284649_3_alg».proof.Proof.LossLaw
import Idealize.ShloMosaic.Lib.Pipeline.Value
import Idealize.ShloMosaic.Lib.StableHlo.Run
import Idealize.ShloMosaic.PureOps.Ideal.Laws

set_option maxRecDepth 16384

noncomputable section

namespace Cert.KernelIdeal.LossValue

open Cert.KernelIdeal Cert.KernelIdeal.Gen Cert.KernelIdeal.Run Cert.LossSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The two argument tables on core `c`. -/
abbrev xs (c : Dev nD) : Rows := m ((c : Thread nD τ).loc main_arg0)
abbrev ds (c : Dev nD) : Dists := m ((c : Thread nD τ).loc main_arg1)

/-! ## Where each window's block sits in its array -/

/-- The printed index maps over the grid: the rows tile and the result block move with the point along axis 0, the
    distances tile along axis 1, the context rows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = t.val ∧ win0_3.index t (1 : Fin 2) = 0)

/-- The region finds the transposed distance table and the first twenty rows where the two lines before it put them. -/
theorem V_dist (c : Dev nD) : V m c main_v1
    = transpose S20x200000 [1, 0] (m ((c : Thread nD τ).loc main_arg1)) transposes_S200000x20_S20x200000_1_0 := by
  show StableHlo.after hostOps0 (fun b => m (c, b)) (Proc.devRef .tc main_v1) = _
  after_results
theorem V_ctx (c : Dev nD) : V m c main_v0
    = extractStridedSlice S20x64 ![0, 0] (m ((c : Thread nD τ).loc main_arg0)) slices_S200000x64_S20x64_0_0 := by
  show StableHlo.after hostOps0 (fun b => m (c, b)) (Proc.devRef .tc main_v0) = _
  after_results

/-- Row `r` of the rows tile at point `t` is row `12800·t + r` of the table, where that exists. -/
theorem rows_at (c : Dev nD) (t : Fin cfg0.N) (r : Fin 12800) (k : Fin 64) (h : t.val * 12800 + r.val < 200000) :
    rowsBlk m c t (ix2 r k) = xs m c (ix2 ⟨t.val * 12800 + r.val, h⟩ k) := by
  unfold rowsBlk Window.fill
  rw [dif_pos (moved_rows t r k h)]
  unfold iblk
  show V m c main_arg0 (((cfg0.win 0).blk t).view.emb _) = _
  rw [V_main_arg0]
  refine congrArg (m ((c : Thread nD τ).loc main_arg0)) (funext fun a => Fin.ext ?_)
  obtain ⟨e0, e1, -⟩ := idx_facts t
  match a with
  | ⟨0, _⟩ => show win0_0.index t (0 : Fin 2) * 12800 + 1 * r.val = t.val * 12800 + r.val; rw [e0]; omega
  | ⟨1, _⟩ => show win0_0.index t (1 : Fin 2) * 64 + 1 * k.val = k.val; rw [e1]; omega

/-- Entry `(j, r)` of the distances tile at point `t` is the given distance of row `12800·t + r` to context row `j`. -/
theorem dist_at (c : Dev nD) (t : Fin cfg0.N) (j : Fin 20) (r : Fin 12800) (h : t.val * 12800 + r.val < 200000) :
    distBlk m c t (ix2 j r) = ds m c (ix2 ⟨t.val * 12800 + r.val, h⟩ j) := by
  unfold distBlk Window.fill
  rw [dif_pos (moved_dist t j r h)]
  unfold iblk
  show V m c main_v1 (((cfg0.win 1).blk t).view.emb _) = _
  rw [V_dist]
  refine transpose_apply [1, 0] _ transposes_S200000x20_S20x200000_1_0 _ (ix2 ⟨t.val * 12800 + r.val, h⟩ j) (fun b => ?_)
  obtain ⟨-, -, e2, e3, -⟩ := idx_facts t
  match b with
  | ⟨0, _⟩ => show j.val = win0_1.index t (0 : Fin 2) * 20 + 1 * j.val; rw [e2]; omega
  | ⟨1, _⟩ => show t.val * 12800 + r.val = win0_1.index t (1 : Fin 2) * 12800 + 1 * r.val; rw [e3]; omega

/-- The context buffer holds the first twenty rows of the table at every point. -/
theorem ctx_at (c : Dev nD) (t : Fin cfg0.N) (j : Fin 20) (k : Fin 64) :
    iblk m c 2 t (ix2 j k) = xs m c (ix2 ⟨j.val, by have := j.isLt; omega⟩ k) := by
  unfold iblk
  show V m c main_v0 (((cfg0.win 2).blk t).view.emb (ix2 j k)) = _
  rw [V_ctx]
  refine extractStridedSlice_apply ![0, 0] _ slices_S200000x64_S20x64_0_0 _ (ix2 ⟨j.val, by have := j.isLt; omega⟩ k) (fun a => ?_)
  obtain ⟨-, -, -, -, e4, e5, -⟩ := idx_facts t
  match a with
  | ⟨0, _⟩ => show j.val = 0 + (win0_2.index t (0 : Fin 2) * 20 + 1 * j.val); rw [e4]; omega
  | ⟨1, _⟩ => show k.val = 0 + (win0_2.index t (1 : Fin 2) * 64 + 1 * k.val); rw [e5]; omega

/-! ## The result block, entry by entry -/

/-- Point `t`'s result block: tile `t`'s sum at the corner, zero elsewhere. -/
theorem outBlk_at (c : Dev nD) (t : Fin cfg0.N) (a : Fin 8) (b : Fin 128) :
    outBlk m c t (ix2 a b) = if a.val = 0 ∧ b.val = 0 then tileSum (xs m c) (ds m c) t else 0 := by
  unfold outBlk
  rw [Body.outBlock_eq, TileTerm.corner_sum]
  refine if_congr Iff.rfl ?_ rfl
  unfold tileSum
  refine Finset.sum_congr rfl fun j _ => Finset.sum_congr rfl fun r _ => ?_
  rw [TileTerm.tile_term, coord_val t]
  by_cases h : t.val * 12800 + r.val < 200000
  · rw [if_pos h, dif_pos h]
    unfold term
    have hc : (fun k => iblk m c 2 t (ix2 j k)) = ctx (xs m c) j := funext fun k => ctx_at m c t j k
    have hr : (fun k => rowsBlk m c t (ix2 r k)) = row (xs m c) ⟨t.val * 12800 + r.val, h⟩ := funext fun k => rows_at m c t r k h
    rw [hc, hr, dist_at m c t j r h]
  · rw [if_neg h, dif_neg h]

/-! ## The result array -/

/-- What point `t` writes back is block `t` of the sixteen tile sums spread over the array. -/
theorem flushed_out (c : Dev nD) (t : Fin cfg0.N) :
    (dats m 0 c).flushed 3 t = ((cfg0.win 3).blk t).view.read (Elt Ideal) (LossLaw.spread (tileSum (xs m c) (ds m c))) := by
  show (cfg0.win 3).cut (grid0.coords t) ((dats m 0 c).after 3 t) = _
  rw [after_out]
  funext q
  obtain ⟨a, b, rfl⟩ : ∃ (a : Fin 8) (b : Fin 128), q = ix2 a b := ⟨q 0, q 1, eq_ix2 q⟩
  show outBlk m c t (ix2 a b) = LossLaw.spread _ (((cfg0.win 3).blk t).view.emb (ix2 a b))
  rw [outBlk_at]
  unfold LossLaw.spread
  obtain ⟨-, -, -, -, -, -, e6, e7⟩ := idx_facts t
  have h0 : ((((cfg0.win 3).blk t).view.emb (ix2 a b)) 0).val = t.val * 8 + a.val := by
    show win0_3.index t (0 : Fin 2) * 8 + 1 * a.val = _; rw [e6]; omega
  have h1 : ((((cfg0.win 3).blk t).view.emb (ix2 a b)) 1).val = b.val := by
    show win0_3.index t (1 : Fin 2) * 128 + 1 * b.val = _; rw [e7]; omega
  have ha : a.val < 8 := a.isLt
  by_cases hab : a.val = 0 ∧ b.val = 0
  · rw [if_pos hab, dif_pos ⟨by rw [h0]; omega, by rw [h1]; exact hab.2⟩]
    refine congrArg _ (Fin.ext ?_)
    show t.val = ((((cfg0.win 3).blk t).view.emb (ix2 a b)) 0).val / 8
    rw [h0]; omega
  · rw [if_neg hab, dif_neg]
    rintro ⟨g0, g1⟩
    rw [h0] at g0; rw [h1] at g1
    exact hab ⟨by omega, g1⟩

/-- An index of the array is in point `t`'s block iff each coordinate is in the block's range on its axis. -/
theorem mem_blk_out (t : Fin cfg0.N) (i : S128x128.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v2).slice (win0_3.rect t)).set ↔ _
  rw [View.set_slice_whole, Rect.mem_set_unit]
  exact Iff.rfl

/-- The sixteen blocks of eight rows tile the 128 rows: row `i` lies in block `i / 8`. -/
theorem cover_out (i : S128x128.Idx) : ∃ t : Fin cfg0.N, (cfg0.win 3).flush t = true ∧ i ∈ ((cfg0.win 3).blk t).view.set := by
  have hi0 : (i 0).val < 128 := (i 0).isLt
  have hi1 : (i 1).val < 128 := (i 1).isLt
  have hN : cfg0.N = 16 := N_0
  refine ⟨⟨(i 0).val / 8, by rw [hN]; omega⟩, flush0_3 _, ?_⟩
  rw [mem_blk_out]
  obtain ⟨-, -, -, -, -, -, e6, e7⟩ := idx_facts ⟨(i 0).val / 8, by rw [hN]; omega⟩
  intro a
  match a with
  | ⟨0, _⟩ =>
    show win0_3.index ⟨(i 0).val / 8, _⟩ (0 : Fin 2) * 8 ≤ (i 0).val ∧ (i 0).val < win0_3.index ⟨(i 0).val / 8, _⟩ (0 : Fin 2) * 8 + 8
    rw [e6]; show (i 0).val / 8 * 8 ≤ (i 0).val ∧ (i 0).val < (i 0).val / 8 * 8 + 8; omega
  | ⟨1, _⟩ =>
    show win0_3.index ⟨(i 0).val / 8, _⟩ (1 : Fin 2) * 128 ≤ (i 1).val ∧ (i 1).val < win0_3.index ⟨(i 0).val / 8, _⟩ (1 : Fin 2) * 128 + 128
    rw [e7]; omega

/-- The result array after the run: the sixteen tile sums, each at the corner of its block. -/
theorem final_out (c : Dev nD) : (dats m 0 c).arrAt 3 cfg0.N = LossLaw.spread (tileSum (xs m c) (ds m c)) :=
  (dats m 0 c).arrAt_eq_of_cover 3 _ (fun t _ => flushed_out m c t) cover_out

/-! ## The lines after the region -/

/-- The sum of the result array divided by the row count is the loss. -/
theorem tail_loss (c : Dev nD) :
    Pipeline.afterTail₀ cfgs (dats m) 0 (V0 m) [hostOps1] c main_v4 = fun _ => loss (xs m c) (ds m c) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2)
      = LossLaw.spread (tileSum (xs m c) (ds m c)) :=
    (Pipeline.withArrays_arr spec0 launch0.win.arr_inj c _ _ 3).trans (final_out m c)
  rw [e]
  funext q
  show FloatOps.hostDivf (Host.reduceAdd (LossLaw.spread (tileSum (xs m c) (ds m c))) (constant (F := Ideal) S_ .f32 0x00000000#32)
      reducesTo_S128x128_S_d0_1 h_S_ q) (constant (F := Ideal) S_ .f32 0x48435000#32 q) = _
  simp only [Host.reduceAdd, Ideal.hostReduceAdd_def, Ideal.hostDivf_def]
  rw [Ideal.hostReduceAdd_total reducesTo_S128x128_S_d0_1 (fun b => b.elim0), LossLaw.spread_total, LossLaw.tiles_cover]
  show Ideal.div (Ideal.ofBits .f32 0x00000000#32 + grand (xs m c) (ds m c)) (Ideal.ofBits .f32 0x48435000#32) = loss (xs m c) (ds m c)
  rw [Ideal.ofBits_zero_f32, zero_add]
  rfl

/-! ## The run, read -/

/-- Every weakly fair execution of the idealized kernel ends with its result at the loss of its two argument tables and
    those tables unchanged. -/
theorem run : θ_run defs (onTc (τ := τ) (main (F := Ideal))) ⟨m, fun _ => 0, ρ⟩ fun r => ∀ c : Dev nD,
      r.2.mem ((c.tc : Thread nD τ).loc main_v4) = (fun _ => loss (xs m c) (ds m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (tail_loss m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.LossValue

end
-- ==== Proof.RefLoss.lean ====
/-
  The reference's result, read one operation at a time, is `LossSpec.loss` of its two arguments: the row norms by a
  sum over each row, the inner products with the first twenty rows by the matrix product, the clamped squared distance,
  the guarded root, the absolute difference, the sum over all 200000 × 20 entries and the division by the row count.
-/
import proofs.«415024_j66546223284649_3_alg».proof.Proof.Gen.ReferenceIdeal.Read
import proofs.«415024_j66546223284649_3_alg».proof.Proof.LossSpec

noncomputable section

namespace Cert.ReferenceIdeal.RefLoss

open Cert.ReferenceIdeal Cert.ReferenceIdeal.Gen Idealize.ShloMosaic Idealize.ShloMosaic.ValueIdx Cert.LossSpec

/-- The squared norm of row `r`: the reduce over the row's 64 squares, from the zero word. -/
theorem rowNorm (x0 : (⟨S200000x64, .f32⟩ : BufTy).Contents (Elt Ideal)) (r : Fin 200000) :
    Read.val_main_v2 (F := Ideal) x0 (ix1 r) = dotp (row x0 r) (row x0 r) := by
  rw [Read.val_main_v2_apply, Read.val_main_cst_apply, Ideal.ofBits_def, Ideal.ofBits_zero_f32, zero_add]
  unfold dotp row
  refine Finset.sum_congr rfl fun k _ => ?_
  have e : Read.idx_main_v2 (ix1 r) k = ix2 r k :=
    funext fun a => Fin.ext (by match a with | ⟨0, _⟩ => rfl | ⟨1, _⟩ => rfl)
  rw [Read.val_main_v1_apply, e, Ideal.mulf_def]

/-- The row's norm, broadcast along the twenty columns. -/
theorem rowNormAt (x0 : (⟨S200000x64, .f32⟩ : BufTy).Contents (Elt Ideal)) (i : Fin 200000) (j : Fin 20) :
    Read.val_main_v8 (F := Ideal) x0 (ix2 i j) = dotp (row x0 i) (row x0 i) := by
  have e : Read.idx_main_v6 (Read.idx_main_v8 (ix2 i j)) = ix1 i :=
    funext fun a => Fin.ext (by match a with | ⟨0, _⟩ => rfl)
  rw [Read.val_main_v8_apply, Read.val_main_v6_apply, e, rowNorm]

/-- The context row's norm: the first twenty row norms, broadcast along the 200000 rows. -/
theorem ctxNormAt (x0 : (⟨S200000x64, .f32⟩ : BufTy).Contents (Elt Ideal)) (i : Fin 200000) (j : Fin 20) :
    Read.val_main_v9 (F := Ideal) x0 (ix2 i j) = dotp (ctx x0 j) (ctx x0 j) := by
  have e : Read.idx_main_v3 (Read.idx_main_v7 (Read.idx_main_v9 (ix2 i j)))
      = ix1 (⟨j.val, by have := j.isLt; omega⟩ : Fin 200000) :=
    funext fun a => Fin.ext (by match a with | ⟨0, _⟩ => rfl)
  rw [Read.val_main_v9_apply, Read.val_main_v7_apply, Read.val_main_v3_apply, e, rowNorm]
  rfl

/-- The matrix product's entry: the inner product of row `i` with context row `j`. -/
theorem innerAt (x0 : (⟨S200000x64, .f32⟩ : BufTy).Contents (Elt Ideal)) (i : Fin 200000) (j : Fin 20) :
    Read.val_main_v5 (F := Ideal) x0 (ix2 i j) = dotp (ctx x0 j) (row x0 i) := by
  rw [Read.val_main_v5_apply]
  unfold dotp ctx row
  refine Finset.sum_congr rfl fun k _ => ?_
  have el : Read.lidx_main_v5 (ix2 i j) k = ix2 i k :=
    funext fun a => Fin.ext (by match a with | ⟨0, _⟩ => rfl | ⟨1, _⟩ => rfl)
  have er : Read.idx_main_v0 (Read.idx_main_v4 (Read.ridx_main_v5 (ix2 i j) k))
      = ix2 (⟨j.val, by have := j.isLt; omega⟩ : Fin 200000) k :=
    funext fun a => Fin.ext (by match a with | ⟨0, _⟩ => rfl | ⟨1, _⟩ => rfl)
  rw [Read.val_main_v4_apply, Read.val_main_v0_apply, el, er, mul_comm]

/-- The entry of the absolute differences at row `i`, context row `j` is the specification's term. -/
theorem entry (x0 : (⟨S200000x64, .f32⟩ : BufTy).Contents (Elt Ideal)) (x1 : (⟨S200000x20, .f32⟩ : BufTy).Contents (Elt Ideal))
    (i : Fin 200000) (j : Fin 20) :
    Read.val_main_v24 (F := Ideal) x0 x1 (ix2 i j) = term x0 x1 i j := by
  rw [Read.val_main_v24_apply, Read.val_main_v23_apply, Read.val_main_v22_apply, Read.val_main_v21_apply,
    Read.val_main_v20_apply, Read.val_main_v19_apply, Read.val_main_v17_apply, Read.val_main_v15_apply,
    Read.val_main_v13_apply, Read.val_main_v12_apply, Read.val_main_v10_apply,
    rowNormAt, ctxNormAt, innerAt,
    Read.val_main_v11_apply, Read.val_main_cst_0_apply,
    Read.val_main_v14_apply, Read.val_main_cst_1_apply,
    Read.val_main_v16_apply, Read.val_main_cst_2_apply,
    Read.val_main_v18_apply, Read.val_main_cst_3_apply,
    Read.val_main_call0_v1_apply, Read.val_main_call0_v0_apply, Read.val_main_cst_4_apply,
    Read.val_main_call1_v1_apply, Read.val_main_call1_v0_apply, Read.val_main_cst_5_apply]
  simp only [Ideal.ofBits_def, Ideal.hostAbsf_def, Ideal.absf_def, Ideal.subf_def, Ideal.addf_def, Ideal.mulf_def,
    Ideal.maximumf_def, Ideal.cmpf_def, Ideal.hostUnary_sqrt_def]
  unfold term gap
  rw [add_comm (dotp (row x0 i) (row x0 i)) (dotp (ctx x0 j) (ctx x0 j))]

theorem ref_loss (x0 : (⟨S200000x64, .f32⟩ : BufTy).Contents (Elt Ideal)) (x1 : (⟨S200000x20, .f32⟩ : BufTy).Contents (Elt Ideal)) :
    Cert.ReferenceIdeal.Read.val_main_v26 (F := Ideal) x0 x1 = fun _ => loss x0 x1 := by
  funext p
  rw [Read.val_main_v26_apply, Read.val_main_v25_apply, Read.val_main_cst_6_apply, Read.val_main_cst_7_apply,
    Ideal.ofBits_def, Ideal.ofBits_def, Ideal.ofBits_zero_f32, zero_add, Ideal.hostDivf_def,
    sum_idx2 (n0 := 200000) (n1 := 20)]
  simp only [entry]
  rfl

end Cert.ReferenceIdeal.RefLoss

end
-- ==== Proof.lean ====
/-
  The certificate: a loss kernel against its plain reference, equal over the extended reals.

  Both programs take a table `x` of 200000 rows of 64 numbers and a table `dis` of 200000 × 20 given distances, and
  return one number: the sum over every row `i` and each of the first twenty rows `j` of
  `| d(i, j) − dis i j |`, divided by 200000, where `d(i, j)` is the guarded square root of
  `max (‖x_j‖² + ‖x_i‖² − 2⟨x_j, x_i⟩) 0` (`Cert.LossSpec`).

  The reference computes this in one sweep (`Cert.ReferenceIdeal.RefLoss.ref_loss`, over the generated reading of its
  run). The kernel walks the rows in sixteen tiles of 12800, the last of which runs 4800 rows past the tables' end; it
  masks those columns by their row number, writes each tile's sum into the corner of an 8 × 128 block of zeros, and the
  lines after it sum the 128 × 128 array of blocks and divide by 200000. Each column of the kernel's two matrix products
  depends on its own row only, so over the extended reals the masked columns contribute nothing whatever the buffer held
  past the tables' end (`Cert.KernelIdeal.Run.out_indep`), the tile sums regroup to the whole double sum
  (`Cert.LossLaw.tiles_cover`), and the array's total is the sum of the tile sums (`Cert.LossLaw.spread_total`):
  `Cert.KernelIdeal.LossValue.run`. The two sides differ only in the order of an addition, the order of the factors of a
  product, a factor one, and the grouping of a finite sum; none of these laws needs a finite operand, so the
  precondition is never opened.

  The frames: the idealized kernel's by the launch theorem over exact proof data (`Cert.KernelIdeal.Run.frame`); the
  word-level kernel's by the same body step with the result block's contents left unnamed, which a frame claim never
  reads (`Cert.Kernel.Run.frame`); the reference's is its run with the result dropped. The idealization rewrote no
  operation, so `preserves` is trivial.
-/
import proofs.«415024_j66546223284649_3_alg».proof.Defs
import proofs.«415024_j66546223284649_3_alg».proof.Proof.KernelRun
import proofs.«415024_j66546223284649_3_alg».proof.Proof.IdealRun
import proofs.«415024_j66546223284649_3_alg».proof.Proof.IdealValue
import proofs.«415024_j66546223284649_3_alg».proof.Proof.RefLoss
import proofs.«415024_j66546223284649_3_alg».proof.Proof.Gen.Pre_finite_inputs
import proofs.«415024_j66546223284649_3_alg».proof.Proof.Gen.ReferenceIdeal.Run
import proofs.«415024_j66546223284649_3_alg».proof.Proof.Gen.ReferenceIdeal.Read
import Idealize.ShloMosaic.Adequacy
import Idealize.ShloMosaic.Init

noncomputable section

namespace Cert.Proof

open Idealize.ShloMosaic Idealize.SL.Sem

/-- The word-level kernel runs to the end and leaves its two argument tables as launched. -/
theorem frame_kernel : Cert.frame_Kernel := fun m ρ _ => Cert.Kernel.Run.frame m ρ

/-- So does the idealized kernel. -/
theorem frame_ideal : Cert.frame_KernelIdeal := fun m ρ _ => Cert.KernelIdeal.Run.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two tables both programs end with the loss of those tables. -/
theorem algebraic : Cert.algebraic_KernelIdeal_ReferenceIdeal := by
  intro m ρ m' ρ' _ hagree
  refine ⟨_, Cert.KernelIdeal.LossValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefLoss.ref_loss, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
